-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S128x64 : Shape := ⟨2, ![128, 64]⟩
abbrev S128 : Shape := ⟨1, ![128]⟩
abbrev S64x128 : Shape := ⟨2, ![64, 128]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 4294867296#32
  let main_v41 : IVec S1600000 32 := broadcastInDim S1600000 ![] bcast_S_S1600000 main_c_14
  let main_v42 : IVec S1600000 1 := cmpi .sge main_v40 main_v41
  let main_c_15 : IVec S_ 1 := constantI S_ 1 1#1
  let main_v43 : IVec S_ 1 := (fun x v => Host.reduce IntOp.andi x v reducesTo_S1600000_S_d0 h_S_) main_v42 main_c_15
  let main_v44 : IVec S_ 1 := andi main_v38 main_v43
  let main_v45 : IVec S1x1600000 32 := (extractStridedSlice S1x1600000 ![0, 0] · slices_S2x1600000_S1x1600000_0_0) main_arg1
  let main_v46 : IVec S1600000 32 := shapeCast S1600000 main_v45 shapeCasts_S1x1600000_S1600000
  let main_c_16 : IVec S_ 32 := constantI S_ 32 100000#32
  let main_v47 : IVec S1600000 32 := broadcastInDim S1600000 ![] bcast_S_S1600000 main_c_16
  let main_v48 : IVec S1600000 1 := cmpi .slt main_v46 main_v47
  let main_c_17 : IVec S_ 1 := constantI S_ 1 1#1
  let main_v49 : IVec S_ 1 := (fun x v => Host.reduce IntOp.andi x v reducesTo_S1600000_S_d0 h_S_) main_v48 main_c_17
  let main_v50 : IVec S_ 1 := andi main_v44 main_v49
  main_v50

def fn_part1 {F : FTy → Type} [FloatOps F] (main_arg1 : IVec S2x1600000 32) (main_arg5 : FVec F S128x64 .f32) (main_arg6 : FVec F S128 .f32) (main_arg7 : FVec F S64x128 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S2x1600000 32) (main_arg2 : FVec F S1600000x64 .f32) (main_arg3 : FVec F S64x64 .f32) (main_arg4 : FVec F S64 .f32) (main_arg5 : FVec F S128x64 .f32) (main_arg6 : FVec F S128 .f32) (main_arg7 : FVec F S64x128 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S128x64 : Shape := ⟨2, ![128, 64]⟩
abbrev S128 : Shape := ⟨1, ![128]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S800000x128 : Shape := ⟨2, ![800000, 128]⟩
abbrev S128x128 : Shape := ⟨2, ![128, 128]⟩
abbrev S6400x128 : Shape := ⟨2, ![6400, 128]⟩
abbrev S1x128 : Shape := ⟨2, ![1, 128]⟩
abbrev S50000x128 : Shape := ⟨2, ![50000, 128]⟩
abbrev S64x256 : Shape := ⟨2, ![64, 256]⟩
abbrev S128x256 : Shape := ⟨2, ![128, 256]⟩
abbrev S256 : Shape := ⟨1, ![256]⟩
abbrev S256x128 : Shape := ⟨2, ![256, 128]⟩
abbrev S2000x128 : Shape := ⟨2, ![2000, 128]⟩
abbrev S2000x256 : Shape := ⟨2, ![2000, 256]⟩
abbrev S1x256 : Shape := ⟨2, ![1, 256]⟩

abbrev nBuf : Space → Nat
  | .hbm => 69
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S800000x128, .f32⟩
  | .hbm, ⟨37, _⟩ => ⟨S800000x128, .f32⟩
  | .hbm, ⟨38, _⟩ => ⟨S64x64, .f32⟩
  | .hbm, ⟨39, _⟩ => ⟨S_, .f32⟩
  | .hbm, ⟨40, _⟩ => ⟨S64x64, .f32⟩
  | .hbm, ⟨41, _⟩ => ⟨S64x128, .f32⟩
  | .hbm, ⟨42, _⟩ => ⟨S64x128, .f32⟩
  | .hbm, ⟨43, _⟩ => ⟨S128x128, .f32⟩
  | .hbm, ⟨44, _⟩ => ⟨S128, .f32⟩
  | .hbm, ⟨45, _⟩ => ⟨S800000x128, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S50000x128, .f32⟩
  | .hbm, ⟨52, _⟩ => ⟨S50000x128, .f32⟩
  | .hbm, ⟨53, _⟩ => ⟨S64x128, .f32⟩
  | .hbm, ⟨54, _⟩ => ⟨S_, .f32⟩
  | .hbm, ⟨55, _⟩ => ⟨S64x128, .f32⟩
  | .hbm, ⟨56, _⟩ => ⟨S64x256, .f32⟩
  | .hbm, ⟨57, _⟩ => ⟨S64x256, .f32⟩
  | .hbm, ⟨58, _⟩ => ⟨S128x256, .f32⟩
  | .hbm, ⟨59, _⟩ => ⟨S256, .f32⟩
  | .hbm, ⟨60, _⟩ => ⟨S128x64, .f32⟩
  | .hbm, ⟨61, _⟩ => ⟨S_, .f32⟩
  | .hbm, ⟨62, _⟩ => ⟨S128x64, .f32⟩
  | .hbm, ⟨63, _⟩ => ⟨S128x128, .f32⟩
  | .hbm, ⟨64, _⟩ => ⟨S128x128, .f32⟩
  | .hbm, ⟨65, _⟩ => ⟨S256x128, .f32⟩
  | .hbm, ⟨66, _⟩ => ⟨S128, .f32⟩
  | .hbm, ⟨67, _⟩ => ⟨S50000x128, .f32⟩
  | .hbm, ⟨68, _⟩ => ⟨S100000x64, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128, .f32⟩
  | .local _ .vmem, ⟨6, _⟩ => ⟨S6400x128, .f32⟩
  | .local _ .vmem, ⟨7, _⟩ => ⟨S6400x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x256, .f32⟩
  | .local _ .vmem, ⟨13, _⟩ => ⟨S256, .f32⟩
  | .local _ .vmem, ⟨14, _⟩ => ⟨S256x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1600000x64_S800000x128 : S1600000x64.ShapeCasts S800000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S6400x128 : S1x128.Broadcasts S6400x128
  shapeCasts_S800000x128_S1600000x64 : S800000x128.ShapeCasts S1600000x64
  bcast_S_S100000x64 : S_.BroadcastsInDim S100000x64 (![] : Fin 0 → Fin S100000x64.rank)
  shapeCasts_S100000x64_S50000x128 : S100000x64.ShapeCasts S50000x128
  transposes_S128x64_S64x128_1_0 : S128x64.Transposes [1, 0] S64x128
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  concatenates_S128_S128_S256_d0 : Shape.Concatenates [S128, S128] S256 0
  transposes_S64x128_S128x64_1_0 : S64x128.Transposes [1, 0] S128x64
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S2000x128 : S1x128.Broadcasts S2000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  dot_S6400x128_S128x128_S6400x128_1_0_0_1_n_n_wf : DotDims.WF S6400x128 S128x128 S6400x128 [1] [0] [0] [1] [] []
  scatter_S100000x64_S1600000x1_S1600000x64_1_0_0_1_wf : ScatterDims.WF S100000x64 S1600000x1 S1600000x64 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S800000x128.size a
  hwx0_4 : ∀ i : grid0.Coords, EltTy.bits .f32 = 32 ∨ (Rect.block (s := S800000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v5) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S128x64 : Shape := ⟨2, ![128, 64]⟩
abbrev S128 : Shape := ⟨1, ![128]⟩
abbrev S64x128 : Shape := ⟨2, ![64, 128]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S100000x128 : Shape := ⟨2, ![100000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S64x64, .f32⟩
  | .hbm, ⟨14, _⟩ => ⟨S1600000x64, .f32⟩
  | .hbm, ⟨15, _⟩ => ⟨S1x64, .f32⟩
  | .hbm, ⟨16, _⟩ => ⟨S1600000x64, .f32⟩
  | .hbm, ⟨17, _⟩ => ⟨S1600000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S64x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S128x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S64x128_S128x64_1_0 : S64x128.Transposes [1, 0] S128x64
  bcast_S1x64_S100000x64_0_1 : S1x64.BroadcastsInDim S100000x64 (![0, 1] : Fin 2 → Fin S100000x64.rank)
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []

variable [Facts₀]

def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  Shared vocabulary of the value proof: what each of the two kernel regions leaves in its output array, as one
  whole-array function of the arrays it reads, and the kernel program's host operations around the regions as
  closed terms of @main's arguments.

  The program is one GINE message-passing layer on a graph with 100000 nodes and 1600000 edges, feature width 64:
    message  msg[e, j] = max (x[src e, j] + (Σ_k attr[e, k] · lin_w[j, k] + lin_b[j])) 0
    sum      agg       = scatter-add of the message rows at the destination nodes
    node     out[n, j] = Σ_k max (Σ_l (1 · x[n, l] + agg[n, l]) · w0[k, l] + b0[k]) 0 · w1[j, k] + b1[j]
  The kernel packs two consecutive rows of width 64 into one row of width 128 and replaces each weight matrix by the
  block-diagonal matrix with two copies of it, so that every packed row is computed by one product of width 128.
-/
import proofs.«431062_j3092376453269_2_alg».proof.Proof.Gen.KernelIdeal
import Idealize.ShloMosaic.PureOps.Ideal
import Idealize.ShloMosaic.Lib.ValueIdx

noncomputable section

namespace Cert.Spec

open Idealize.ShloMosaic Cert.KernelIdeal ValueIdx
open Cert.KernelIdeal.Facts₀ Cert.KernelIdeal.Facts

/-! ## The two regions, each as one function of whole arrays -/

/-- Entry (r, c) of the edge stage on packed rows: the rectified sum of the gathered source features, the product of
    packed row r of the edge attributes with column c of the packed weight, and the packed bias. -/
def edgeAt (xs ea : FVec Ideal S800000x128 .f32) (we : FVec Ideal S128x128 .f32) (bb : FVec Ideal S128 .f32)
    (r : Fin 800000) (c : Fin 128) : EReal :=
  max (xs (ix2 r c) + ((∑ k : Fin 128, ea (ix2 r k) * we (ix2 k c)) + bb (ix1 c))) 0

/-- The edge stage's output array. -/
def edgeArr (xs ea : FVec Ideal S800000x128 .f32) (we : FVec Ideal S128x128 .f32) (bb : FVec Ideal S128 .f32) :
    FVec Ideal S800000x128 .f32 :=
  fun i => edgeAt xs ea we bb ⟨(i 0).val, (i 0).isLt⟩ ⟨(i 1).val, (i 1).isLt⟩

/-- Entry (r, j) of the hidden layer on packed rows: rectified product of the updated node features with the packed
    first weight, plus the packed first bias. -/
def hidAt (xp ap : FVec Ideal S50000x128 .f32) (w0p : FVec Ideal S128x256 .f32) (b0p : FVec Ideal S256 .f32)
    (r : Fin 50000) (j : Fin 256) : EReal :=
  max ((∑ k : Fin 128, (Ideal.ofBits .f32 0x3F800000#32 * xp (ix2 r k) + ap (ix2 r k)) * w0p (ix2 k j)) + b0p (ix1 j)) 0

/-- Entry (r, c) of the node stage on packed rows. -/
def nodeAt (xp ap : FVec Ideal S50000x128 .f32) (w0p : FVec Ideal S128x256 .f32) (b0p : FVec Ideal S256 .f32)
    (w1p : FVec Ideal S256x128 .f32) (b1p : FVec Ideal S128 .f32) (r : Fin 50000) (c : Fin 128) : EReal :=
  (∑ j : Fin 256, hidAt xp ap w0p b0p r j * w1p (ix2 j c)) + b1p (ix1 c)

/-- The node stage's output array. -/
def nodeArr (xp ap : FVec Ideal S50000x128 .f32) (w0p : FVec Ideal S128x256 .f32) (b0p : FVec Ideal S256 .f32)
    (w1p : FVec Ideal S256x128 .f32) (b1p : FVec Ideal S128 .f32) : FVec Ideal S50000x128 .f32 :=
  fun i => nodeAt xp ap w0p b0p w1p b1p ⟨(i 0).val, (i 0).isLt⟩ ⟨(i 1).val, (i 1).isLt⟩

/-! ## The host operations of the kernel program, as terms of @main's arguments -/

/-- Row 0 of the edge index array: the source node of each edge. -/
def kSrc (a1 : IVec S2x1600000 32) : IVec S1600000 32 :=
  shapeCast S1600000 (extractStridedSlice S1x1600000 ![0, 0] a1 slices_S2x1600000_S1x1600000_0_0) shapeCasts_S1x1600000_S1600000

/-- Row 1 of the edge index array: the destination node of each edge. -/
def kDst (a1 : IVec S2x1600000 32) : IVec S1600000 32 :=
  shapeCast S1600000 (extractStridedSlice S1x1600000 ![1, 0] a1 slices_S2x1600000_S1x1600000_1_0) shapeCasts_S1x1600000_S1600000

/-- The source indices with a negative index counted from the end, as a column of start indices. -/
def kIdx (a1 : IVec S2x1600000 32) : IVec S1600000x1 32 :=
  broadcastInDim S1600000x1 ![0] bcast_S1600000_S1600000x1_0
    (select (cmpi .slt (kSrc a1) (broadcastInDim S1600000 ![] bcast_S_S1600000 (constantI S_ 32 0#32)))
      (addi (kSrc a1) (broadcastInDim S1600000 ![] bcast_S_S1600000 (constantI S_ 32 100000#32))) (kSrc a1))

/-- Per edge: is its start index a row of the node table? -/
def kMask (a1 : IVec S2x1600000 32) : IVec S1600000 1 :=
  (fun x v => Host.reduce IntOp.andi x v reducesTo_S1600000x1_S1600000_d1 h_S_)
    (andi (cmpi .sge (kIdx a1) (broadcastInDim S1600000x1 ![] bcast_S_S1600000x1 (constantI S_ 32 0#32)))
      (cmpi .sle (kIdx a1) (broadcastInDim S1600000x1 ![0, 1] bcast_S1x1_S1600000x1_0_1
        (broadcastInDim S1x1 ![1] bcast_S1_S1x1_1 (constantI S1 32 99999#32)))))
    (constantI S_ 1 1#1)

/-- The gathered rows of the node features. -/
def kGather (a0 : FVec Ideal S100000x64 .f32) (a1 : IVec S2x1600000 32) : FVec Ideal S1600000x64 .f32 :=
  Host.gather gather_S100000x64_S1600000x1_S1600000x64_1_0_n_n_0_1_164 a0 (kIdx a1)

/-- The kernel's source features per edge: the gathered row where the index is a row of the table, a fill value elsewhere. -/
def kXs (a0 : FVec Ideal S100000x64 .f32) (a1 : IVec S2x1600000 32) : FVec Ideal S1600000x64 .f32 :=
  select (broadcastInDim S1600000x64 ![0] bcast_S1600000_S1600000x64_0 (kMask a1)) (kGather a0 a1)
    (broadcastInDim S1600000x64 ![] bcast_S_S1600000x64 (constant (F := Ideal) S_ .f32 0x7FC00000#32))

/-- The edge weight, packed: two copies of the transposed 64×64 matrix on the diagonal of a 128×128 matrix of zeros. -/
def kWe (a3 : FVec Ideal S64x64 .f32) : FVec Ideal S128x128 .f32 :=
  concatenate S128x128 0
    [⟨S64x128, concatenate S64x128 1 [⟨S64x64, transpose S64x64 [1, 0] a3 transposes_S64x64_S64x64_1_0⟩,
        ⟨S64x64, broadcastInDim S64x64 ![] bcast_S_S64x64 (constant (F := Ideal) S_ .f32 0x00000000#32)⟩] concatenates_S64x64_S64x64_S64x128_d1⟩,
     ⟨S64x128, concatenate S64x128 1 [⟨S64x64, broadcastInDim S64x64 ![] bcast_S_S64x64 (constant (F := Ideal) S_ .f32 0x00000000#32)⟩,
        ⟨S64x64, transpose S64x64 [1, 0] a3 transposes_S64x64_S64x64_1_0⟩] concatenates_S64x64_S64x64_S64x128_d1⟩]
    concatenates_S64x128_S64x128_S128x128_d0

/-- The edge bias twice. -/
def kBe (a4 : FVec Ideal S64 .f32) : FVec Ideal S128 .f32 :=
  concatenate S128 0 [⟨S64, a4⟩, ⟨S64, a4⟩] concatenates_S64_S64_S128_d0

/-- The messages, one row per edge: the edge stage on packed rows, unpacked. -/
def kMsg (xs : FVec Ideal S1600000x64 .f32) (a2 : FVec Ideal S1600000x64 .f32) (a3 : FVec Ideal S64x64 .f32)
    (a4 : FVec Ideal S64 .f32) : FVec Ideal S1600000x64 .f32 :=
  shapeCast S1600000x64
    (edgeArr (shapeCast S800000x128 xs shapeCasts_S1600000x64_S800000x128)
      (shapeCast S800000x128 a2 shapeCasts_S1600000x64_S800000x128) (kWe a3) (kBe a4))
    shapeCasts_S800000x128_S1600000x64

/-- The messages summed at the destination nodes. -/
def kAgg (a1 : IVec S2x1600000 32) (msg : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (kDst a1)) msg

/-- The first node weight, packed: [128, 256]. -/
def kW0 (a5 : FVec Ideal S128x64 .f32) : FVec Ideal S128x256 .f32 :=
  concatenate S128x256 0
    [⟨S64x256, concatenate S64x256 1 [⟨S64x128, transpose S64x128 [1, 0] a5 transposes_S128x64_S64x128_1_0⟩,
        ⟨S64x128, broadcastInDim S64x128 ![] bcast_S_S64x128 (constant (F := Ideal) S_ .f32 0x00000000#32)⟩] concatenates_S64x128_S64x128_S64x256_d1⟩,
     ⟨S64x256, concatenate S64x256 1 [⟨S64x128, broadcastInDim S64x128 ![] bcast_S_S64x128 (constant (F := Ideal) S_ .f32 0x00000000#32)⟩,
        ⟨S64x128, transpose S64x128 [1, 0] a5 transposes_S128x64_S64x128_1_0⟩] concatenates_S64x128_S64x128_S64x256_d1⟩]
    concatenates_S64x256_S64x256_S128x256_d0

/-- The first node bias twice. -/
def kB0 (a6 : FVec Ideal S128 .f32) : FVec Ideal S256 .f32 :=
  concatenate S256 0 [⟨S128, a6⟩, ⟨S128, a6⟩] concatenates_S128_S128_S256_d0

/-- The second node weight, packed: [256, 128]. -/
def kW1 (a7 : FVec Ideal S64x128 .f32) : FVec Ideal S256x128 .f32 :=
  concatenate S256x128 0
    [⟨S128x128, concatenate S128x128 1 [⟨S128x64, transpose S128x64 [1, 0] a7 transposes_S64x128_S128x64_1_0⟩,
        ⟨S128x64, broadcastInDim S128x64 ![] bcast_S_S128x64 (constant (F := Ideal) S_ .f32 0x00000000#32)⟩] concatenates_S128x64_S128x64_S128x128_d1⟩,
     ⟨S128x128, concatenate S128x128 1 [⟨S128x64, broadcastInDim S128x64 ![] bcast_S_S128x64 (constant (F := Ideal) S_ .f32 0x00000000#32)⟩,
        ⟨S128x64, transpose S128x64 [1, 0] a7 transposes_S64x128_S128x64_1_0⟩] concatenates_S128x64_S128x64_S128x128_d1⟩]
    concatenates_S128x128_S128x128_S256x128_d0

/-- The second node bias twice. -/
def kB1 (a8 : FVec Ideal S64 .f32) : FVec Ideal S128 .f32 :=
  concatenate S128 0 [⟨S64, a8⟩, ⟨S64, a8⟩] concatenates_S64_S64_S128_d0

/-- The program's result from the summed messages: the node stage on packed rows, unpacked. -/
def kOut (a0 : FVec Ideal S100000x64 .f32) (agg : FVec Ideal S100000x64 .f32) (a5 : FVec Ideal S128x64 .f32)
    (a6 : FVec Ideal S128 .f32) (a7 : FVec Ideal S64x128 .f32) (a8 : FVec Ideal S64 .f32) : FVec Ideal S100000x64 .f32 :=
  shapeCast S100000x64
    (nodeArr (shapeCast S50000x128 a0 shapeCasts_S100000x64_S50000x128)
      (shapeCast S50000x128 agg shapeCasts_S100000x64_S50000x128) (kW0 a5) (kB0 a6) (kW1 a7) (kB1 a8))
    shapeCasts_S50000x128_S100000x64

end Cert.Spec

end
-- ==== Proof.RefSpec.lean ====
/-
  The reference program's two stages as functions of an arbitrary gathered-feature array and an arbitrary
  summed-message array, spelled with the reference's own printed operations, so that its run's result term is
  these functions composed.
-/
import proofs.«431062_j3092376453269_2_alg».proof.Proof.Gen.ReferenceIdeal
import Idealize.ShloMosaic.PureOps.Ideal

noncomputable section

namespace Cert.RefSpec

open Idealize.ShloMosaic Cert.ReferenceIdeal
open Cert.ReferenceIdeal.Facts₀ Cert.ReferenceIdeal.Facts

/-- Row 0 of the edge index array. -/
def rSrc (a1 : IVec S2x1600000 32) : IVec S1600000 32 :=
  shapeCast S1600000 (extractStridedSlice S1x1600000 ![0, 0] a1 slices_S2x1600000_S1x1600000_0_0) shapeCasts_S1x1600000_S1600000

/-- Row 1 of the edge index array. -/
def rDst (a1 : IVec S2x1600000 32) : IVec S1600000 32 :=
  shapeCast S1600000 (extractStridedSlice S1x1600000 ![1, 0] a1 slices_S2x1600000_S1x1600000_1_0) shapeCasts_S1x1600000_S1600000

/-- The source indices with a negative index counted from the end, as a column of start indices. -/
def rIdx (a1 : IVec S2x1600000 32) : IVec S1600000x1 32 :=
  broadcastInDim S1600000x1 ![0] bcast_S1600000_S1600000x1_0
    (select (cmpi .slt (rSrc a1) (broadcastInDim S1600000 ![] bcast_S_S1600000 (constantI S_ 32 0#32)))
      (addi (rSrc a1) (broadcastInDim S1600000 ![] bcast_S_S1600000 (constantI S_ 32 100000#32))) (rSrc a1))

/-- The gathered rows of the node features. -/
def rGather (a0 : FVec Ideal S100000x64 .f32) (a1 : IVec S2x1600000 32) : FVec Ideal S1600000x64 .f32 :=
  Host.gather gather_S100000x64_S1600000x1_S1600000x64_1_0_n_n_0_1_164 a0 (rIdx a1)

/-- The messages from gathered source features xs: rectified (xs + (attr · lin_wᵀ + lin_b)). -/
def rMsg (xs : FVec Ideal S1600000x64 .f32) (a2 : FVec Ideal S1600000x64 .f32) (a3 : FVec Ideal S64x64 .f32)
    (a4 : FVec Ideal S64 .f32) : FVec Ideal S1600000x64 .f32 :=
  maximumf (addf xs (addf (Host.dotGeneral dot_S1600000x64_S64x64_S1600000x64_1_0_0_1_n_n none a2
        (transpose S64x64 [1, 0] a3 transposes_S64x64_S64x64_1_0))
      (broadcastInDim S1600000x64 ![0, 1] bcast_S1x64_S1600000x64_0_1 (broadcastInDim S1x64 ![1] bcast_S64_S1x64_1 a4))))
    (broadcastInDim S1600000x64 ![] bcast_S_S1600000x64 (constant (F := Ideal) S_ .f32 0x00000000#32))

/-- The messages summed at the destination nodes. -/
def rAgg (a1 : IVec S2x1600000 32) (msg : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (rDst a1)) msg

/-- The result from the summed messages agg: (rectified ((1 · x + agg) · w0ᵀ + b0)) · w1ᵀ + b1. -/
def rOut (a0 : FVec Ideal S100000x64 .f32) (agg : FVec Ideal S100000x64 .f32) (a5 : FVec Ideal S128x64 .f32)
    (a6 : FVec Ideal S128 .f32) (a7 : FVec Ideal S64x128 .f32) (a8 : FVec Ideal S64 .f32) : FVec Ideal S100000x64 .f32 :=
  addf (Host.dotGeneral dot_S100000x128_S128x64_S100000x64_1_0_0_1_n_n none
      (maximumf (addf (Host.dotGeneral dot_S100000x64_S64x128_S100000x128_1_0_0_1_n_n none
            (addf (mulf (broadcastInDim S100000x64 ![] bcast_S_S100000x64 (constant (F := Ideal) S_ .f32 0x3F800000#32)) a0) agg)
            (transpose S64x128 [1, 0] a5 transposes_S128x64_S64x128_1_0))
          (broadcastInDim S100000x128 ![0, 1] bcast_S1x128_S100000x128_0_1 (broadcastInDim S1x128 ![1] bcast_S128_S1x128_1 a6)))
        (broadcastInDim S100000x128 ![] bcast_S_S100000x128 (constant (F := Ideal) S_ .f32 0x00000000#32)))
      (transpose S128x64 [1, 0] a7 transposes_S64x128_S128x64_1_0))
    (broadcastInDim S100000x64 ![0, 1] bcast_S1x64_S100000x64_0_1 (broadcastInDim S1x64 ![1] bcast_S64_S1x64_1 a8))

end Cert.RefSpec

end
-- ==== Proof.EdgeAlg.lean ====
/-
  The edge stage on packed rows, unpacked, is the reference's message formula. Row e of the messages is the half
  (e mod 2) of packed row (e div 2); the packed weight is block diagonal, so the product of width 128 splits into
  the 64 terms of that half against the 64×64 weight and 64 terms against zeros, which vanish.
-/
import proofs.«431062_j3092376453269_2_alg».proof.Proof.Spec
import proofs.«431062_j3092376453269_2_alg».proof.Proof.RefSpec
import proofs.«431062_j3092376453269_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.EdgeAlg

open Idealize.ShloMosaic ValueIdx
open Cert.KernelIdeal

/-! ## The packed weight and the doubled bias, entry by entry -/

/-- The packed weight on its upper-left block: the transposed weight. -/
theorem kWe_ul (a3 : FVec Ideal S64x64 .f32) (k c : Fin 128) (hk : k.val < 64) (hc : c.val < 64) :
    Cert.Spec.kWe a3 (ix2 k c) = a3 (ix2 (⟨c.val, hc⟩ : Fin 64) (⟨k.val, hk⟩ : Fin 64)) := by
  unfold Cert.Spec.kWe
  refine (concatenate_pair_apply_left (t := S128x128) (s₁ := S64x128) (s₂ := S64x128) (0 : Fin 2) _ _ _ _ rfl
    (ix2 (⟨k.val, hk⟩ : Fin 64) c) (fun b => by
      match b with
      | ⟨0, _⟩ => rfl
      | ⟨1, _⟩ => rfl)).trans ?_
  refine (concatenate_pair_apply_left (t := S64x128) (s₁ := S64x64) (s₂ := S64x64) (1 : Fin 2) _ _ _ _ rfl
    (ix2 (⟨k.val, hk⟩ : Fin 64) (⟨c.val, hc⟩ : Fin 64)) (fun b => by
      match b with
      | ⟨0, _⟩ => rfl
      | ⟨1, _⟩ => rfl)).trans ?_
  exact transpose_apply [1, 0] a3 _ _ _ (fun b => by
    match b with
    | ⟨0, _⟩ => rfl
    | ⟨1, _⟩ => rfl)

/-- The packed weight on its upper-right block: zero. -/
theorem kWe_ur (a3 : FVec Ideal S64x64 .f32) (k c : Fin 128) (hk : k.val < 64) (hc : 64 ≤ c.val) :
    Cert.Spec.kWe a3 (ix2 k c) = 0 := by
  have hc2 : c.val < 128 := c.isLt
  unfold Cert.Spec.kWe
  refine (concatenate_pair_apply_left (t := S128x128) (s₁ := S64x128) (s₂ := S64x128) (0 : Fin 2) _ _ _ _ rfl
    (ix2 (⟨k.val, hk⟩ : Fin 64) c) (fun b => by
      match b with
      | ⟨0, _⟩ => rfl
      | ⟨1, _⟩ => rfl)).trans ?_
  refine (concatenate_pair_apply_right (t := S64x128) (s₁ := S64x64) (s₂ := S64x64) (1 : Fin 2) _ _ _ _ rfl rfl
    (ix2 (⟨k.val, hk⟩ : Fin 64) (⟨c.val - 64, by omega⟩ : Fin 64)) (fun b hb => by
      match b with
      | ⟨0, _⟩ => rfl
      | ⟨1, _⟩ => exact absurd rfl hb) (by show c.val - 64 + 64 = c.val; omega)).trans ?_
  exact Ideal.ofBits_zero_f32

/-- The packed weight on its lower-left block: zero. -/
theorem kWe_ll (a3 : FVec Ideal S64x64 .f32) (k c : Fin 128) (hk : 64 ≤ k.val) (hc : c.val < 64) :
    Cert.Spec.kWe a3 (ix2 k c) = 0 := by
  have hk2 : k.val < 128 := k.isLt
  unfold Cert.Spec.kWe
  refine (concatenate_pair_apply_right (t := S128x128) (s₁ := S64x128) (s₂ := S64x128) (0 : Fin 2) _ _ _ _ rfl rfl
    (ix2 (⟨k.val - 64, by omega⟩ : Fin 64) c) (fun b hb => by
      match b with
      | ⟨0, _⟩ => exact absurd rfl hb
      | ⟨1, _⟩ => rfl) (by show k.val - 64 + 64 = k.val; omega)).trans ?_
  refine (concatenate_pair_apply_left (t := S64x128) (s₁ := S64x64) (s₂ := S64x64) (1 : Fin 2) _ _ _ _ rfl
    (ix2 (⟨k.val - 64, by omega⟩ : Fin 64) (⟨c.val, hc⟩ : Fin 64)) (fun b => by
      match b with
      | ⟨0, _⟩ => rfl
      | ⟨1, _⟩ => rfl)).trans ?_
  exact Ideal.ofBits_zero_f32

/-- The packed weight on its lower-right block: the transposed weight. -/
theorem kWe_lr (a3 : FVec Ideal S64x64 .f32) (k c : Fin 128) (hk : 64 ≤ k.val) (hc : 64 ≤ c.val) :
    Cert.Spec.kWe a3 (ix2 k c)
      = a3 (ix2 (⟨c.val - 64, by have := c.isLt; omega⟩ : Fin 64) (⟨k.val - 64, by have := k.isLt; omega⟩ : Fin 64)) := by
  have hk2 : k.val < 128 := k.isLt
  have hc2 : c.val < 128 := c.isLt
  unfold Cert.Spec.kWe
  refine (concatenate_pair_apply_right (t := S128x128) (s₁ := S64x128) (s₂ := S64x128) (0 : Fin 2) _ _ _ _ rfl rfl
    (ix2 (⟨k.val - 64, by omega⟩ : Fin 64) c) (fun b hb => by
      match b with
      | ⟨0, _⟩ => exact absurd rfl hb
      | ⟨1, _⟩ => rfl) (by show k.val - 64 + 64 = k.val; omega)).trans ?_
  refine (concatenate_pair_apply_right (t := S64x128) (s₁ := S64x64) (s₂ := S64x64) (1 : Fin 2) _ _ _ _ rfl rfl
    (ix2 (⟨k.val - 64, by omega⟩ : Fin 64) (⟨c.val - 64, by omega⟩ : Fin 64)) (fun b hb => by
      match b with
      | ⟨0, _⟩ => rfl
      | ⟨1, _⟩ => exact absurd rfl hb) (by show c.val - 64 + 64 = c.val; omega)).trans ?_
  exact transpose_apply [1, 0] a3 _ _ _ (fun b => by
    match b with
    | ⟨0, _⟩ => rfl
    | ⟨1, _⟩ => rfl)

/-- The doubled bias on its first half. -/
theorem kBe_lo (a4 : FVec Ideal S64 .f32) (c : Fin 128) (hc : c.val < 64) :
    Cert.Spec.kBe a4 (ix1 c) = a4 (ix1 (⟨c.val, hc⟩ : Fin 64)) := by
  unfold Cert.Spec.kBe
  exact concatenate_pair_apply_left (t := S128) (s₁ := S64) (s₂ := S64) (0 : Fin 1) _ _ _ _ rfl
    (ix1 (⟨c.val, hc⟩ : Fin 64)) (fun b => by
      match b with
      | ⟨0, _⟩ => rfl)

/-- The doubled bias on its second half. -/
theorem kBe_hi (a4 : FVec Ideal S64 .f32) (c : Fin 128) (hc : 64 ≤ c.val) :
    Cert.Spec.kBe a4 (ix1 c) = a4 (ix1 (⟨c.val - 64, by have := c.isLt; omega⟩ : Fin 64)) := by
  have hc2 : c.val < 128 := c.isLt
  unfold Cert.Spec.kBe
  exact concatenate_pair_apply_right (t := S128) (s₁ := S64) (s₂ := S64) (0 : Fin 1) _ _ _ _ rfl rfl
    (ix1 (⟨c.val - 64, by omega⟩ : Fin 64)) (fun b hb => by
      match b with
      | ⟨0, _⟩ => exact absurd rfl hb) (by show c.val - 64 + 64 = c.val; omega)

/-! ## The product of width 128 against the block-diagonal weight -/

/-- A product of a packed row with a column of the first half of the packed weight: only the first 64 terms remain. -/
theorem packed_sum_lo (ea : FVec Ideal S800000x128 .f32) (a3 : FVec Ideal S64x64 .f32) (r : Fin 800000) (c : Fin 128)
    (hc : c.val < 64) :
    (∑ k : Fin 128, ea (ix2 r k) * Cert.Spec.kWe a3 (ix2 k c))
      = ∑ k : Fin 64, ea (ix2 r (⟨k.val, by have := k.isLt; omega⟩ : Fin 128)) * a3 (ix2 (⟨c.val, hc⟩ : Fin 64) k) := by
  show (∑ k : Fin (64 + 64), ea (ix2 r k) * Cert.Spec.kWe a3 (ix2 k c)) = _
  rw [Fin.sum_univ_add]
  have h2 : (∑ k : Fin 64, ea (ix2 r (Fin.natAdd 64 k)) * Cert.Spec.kWe a3 (ix2 (Fin.natAdd 64 k) c)) = 0 := by
    refine Finset.sum_eq_zero fun k _ => ?_
    rw [kWe_ll a3 (Fin.natAdd 64 k) c (by show 64 ≤ 64 + k.val; omega) hc, mul_zero]
  rw [h2, add_zero]
  refine Finset.sum_congr rfl fun k _ => ?_
  rw [kWe_ul a3 (Fin.castAdd 64 k) c k.isLt hc]
  rfl

/-- A product of a packed row with a column of the second half of the packed weight: only the last 64 terms remain. -/
theorem packed_sum_hi (ea : FVec Ideal S800000x128 .f32) (a3 : FVec Ideal S64x64 .f32) (r : Fin 800000) (c : Fin 128)
    (hc : 64 ≤ c.val) :
    (∑ k : Fin 128, ea (ix2 r k) * Cert.Spec.kWe a3 (ix2 k c))
      = ∑ k : Fin 64, ea (ix2 r (⟨64 + k.val, by have := k.isLt; omega⟩ : Fin 128))
          * a3 (ix2 (⟨c.val - 64, by have := c.isLt; omega⟩ : Fin 64) k) := by
  show (∑ k : Fin (64 + 64), ea (ix2 r k) * Cert.Spec.kWe a3 (ix2 k c)) = _
  rw [Fin.sum_univ_add]
  have h1 : (∑ k : Fin 64, ea (ix2 r (Fin.castAdd 64 k)) * Cert.Spec.kWe a3 (ix2 (Fin.castAdd 64 k) c)) = 0 := by
    refine Finset.sum_eq_zero fun k _ => ?_
    rw [kWe_ur a3 (Fin.castAdd 64 k) c k.isLt hc, mul_zero]
  rw [h1, zero_add]
  refine Finset.sum_congr rfl fun k _ => ?_
  rw [kWe_lr a3 (Fin.natAdd 64 k) c (by show 64 ≤ 64 + k.val; omega) hc]
  have e1 : (⟨(Fin.natAdd 64 k).val - 64, by have := (Fin.natAdd 64 k).isLt; omega⟩ : Fin 64) = k :=
    Fin.ext (by show 64 + k.val - 64 = k.val; omega)
  rw [e1]
  rfl

/-! ## One entry of each side, and the equality -/

/-- One entry of the edge stage on packed rows, read at row e = 2 r + h and column j of the unpacked arrays
    (packed row r, packed column 64 h + j): the message formula at (e, j). -/
theorem edge_entry (xs a2 : FVec Ideal S1600000x64 .f32) (a3 : FVec Ideal S64x64 .f32) (a4 : FVec Ideal S64 .f32)
    (e : Fin 1600000) (j : Fin 64) (r : Fin 800000) (c : Fin 128) (h : Nat) (hh : h < 2)
    (he : e.val = 2 * r.val + h) (hc : c.val = 64 * h + j.val)
    (hsc : S1600000x64.ShapeCasts S800000x128) :
    Cert.Spec.edgeAt (shapeCast S800000x128 xs hsc)
        (shapeCast S800000x128 a2 hsc) (Cert.Spec.kWe a3) (Cert.Spec.kBe a4) r c
      = max (xs (ix2 e j) + ((∑ k : Fin 64, a2 (ix2 e k) * a3 (ix2 j k)) + a4 (ix1 j))) 0 := by
  have hj : j.val < 64 := j.isLt
  have hX : shapeCast S800000x128 xs hsc (ix2 r c) = xs (ix2 e j) :=
    shapeCast_apply xs _ (ix2 r c) (ix2 e j) (by
      rw [Shape.rowMajor_val_two, Shape.rowMajor_val_two]
      show e.val * 64 + j.val = r.val * 128 + c.val
      omega)
  have hA : ∀ (k : Fin 64) (k2 : Fin 128), k2.val = 64 * h + k.val →
      shapeCast S800000x128 a2 hsc (ix2 r k2) = a2 (ix2 e k) := fun k k2 hk2 =>
    shapeCast_apply a2 _ (ix2 r k2) (ix2 e k) (by
      have hk : k.val < 64 := k.isLt
      rw [Shape.rowMajor_val_two, Shape.rowMajor_val_two]
      show e.val * 64 + k.val = r.val * 128 + k2.val
      omega)
  unfold Cert.Spec.edgeAt
  rw [hX]
  rcases (show h = 0 ∨ h = 1 by omega) with h0 | h1
  · subst h0
    have hc' : c.val < 64 := by omega
    have ej : (⟨c.val, hc'⟩ : Fin 64) = j := Fin.ext (by show c.val = j.val; omega)
    rw [kBe_lo a4 c hc', packed_sum_lo _ a3 r c hc', ej]
    congr 3
    refine Finset.sum_congr rfl fun k _ => ?_
    rw [hA k ⟨k.val, by have := k.isLt; omega⟩ (by show k.val = 64 * 0 + k.val; omega)]
  · subst h1
    have hc' : 64 ≤ c.val := by omega
    have ej : (⟨c.val - 64, by have := c.isLt; omega⟩ : Fin 64) = j := Fin.ext (by show c.val - 64 = j.val; omega)
    rw [kBe_hi a4 c hc', packed_sum_hi _ a3 r c hc', ej]
    congr 3
    refine Finset.sum_congr rfl fun k _ => ?_
    rw [hA k ⟨64 + k.val, by have := k.isLt; omega⟩ (by show 64 + k.val = 64 * 1 + k.val; omega)]

/-- One entry of the reference's messages. -/
theorem ref_entry (xs a2 : FVec Ideal S1600000x64 .f32) (a3 : FVec Ideal S64x64 .f32) (a4 : FVec Ideal S64 .f32)
    (e : Fin 1600000) (j : Fin 64) :
    Cert.RefSpec.rMsg xs a2 a3 a4 (ix2 e j)
      = max (xs (ix2 e j) + ((∑ k : Fin 64, a2 (ix2 e k) * a3 (ix2 j k)) + a4 (ix1 j))) 0 := by
  show max (xs (ix2 e j) + (Cert.ReferenceIdeal.Read.val_main_v5 (F := Ideal) a2 a3 (ix2 e j)
      + Cert.ReferenceIdeal.Read.val_main_v7 (F := Ideal) a4 (ix2 e j))) (Ideal.ofBits .f32 0x00000000#32) = _
  rw [Cert.ReferenceIdeal.Read.val_main_v5_apply, Cert.ReferenceIdeal.Read.val_main_v7_apply,
    Cert.ReferenceIdeal.Read.val_main_v6_apply, Ideal.ofBits_zero_f32]
  have e7 : Cert.ReferenceIdeal.Read.idx_main_v6 (Cert.ReferenceIdeal.Read.idx_main_v7 (ix2 e j)) = ix1 j := by
    funext a
    match a with
    | ⟨0, _⟩ => rfl
  rw [e7]
  congr 3
  refine Finset.sum_congr rfl fun k _ => ?_
  rw [Cert.ReferenceIdeal.Read.val_main_v4_apply]
  have el : Cert.ReferenceIdeal.Read.lidx_main_v5 (ix2 e j) k = ix2 e k := Shape.idx_ext₂ rfl rfl
  have er : Cert.ReferenceIdeal.Read.idx_main_v4 (Cert.ReferenceIdeal.Read.ridx_main_v5 (ix2 e j) k) = ix2 j k :=
    Shape.idx_ext₂ rfl rfl
  rw [el, er]

/-- For any gathered-feature array xs, the kernel's messages are the reference's. -/
theorem msg_eq (xs a2 : FVec Ideal Cert.KernelIdeal.S1600000x64 .f32) (a3 : FVec Ideal Cert.KernelIdeal.S64x64 .f32)
    (a4 : FVec Ideal Cert.KernelIdeal.S64 .f32) :
    Cert.Spec.kMsg xs a2 a3 a4 = Cert.RefSpec.rMsg xs a2 a3 a4 := by
  funext i
  obtain ⟨e, j, rfl⟩ : ∃ (e : Fin 1600000) (j : Fin 64), i = ix2 e j := ⟨i 0, i 1, eq_ix2 i⟩
  rw [ref_entry]
  have he : e.val < 1600000 := e.isLt
  have hj : j.val < 64 := j.isLt
  unfold Cert.Spec.kMsg
  refine (shapeCast_apply _ _ (ix2 e j)
    (ix2 (⟨e.val / 2, by omega⟩ : Fin 800000) (⟨64 * (e.val % 2) + j.val, by omega⟩ : Fin 128)) (by
      rw [Shape.rowMajor_val_two, Shape.rowMajor_val_two]
      show e.val / 2 * 128 + (64 * (e.val % 2) + j.val) = e.val * 64 + j.val
      omega)).trans ?_
  exact edge_entry xs a2 a3 a4 e j _ _ (e.val % 2) (Nat.mod_lt _ (by decide)) (by show e.val = 2 * (e.val / 2) + e.val % 2; omega) rfl _

end Cert.EdgeAlg

end
-- ==== Proof.NodeAlg.lean ====
/-
  The node stage on packed rows, unpacked, is the reference's node formula. Row n of the result is the half (n mod 2)
  of packed row (n div 2); both packed weights are block diagonal, so each product splits into the terms of that
  half against the unpacked weight and terms against zeros, which vanish.
-/
import proofs.«431062_j3092376453269_2_alg».proof.Proof.Spec
import proofs.«431062_j3092376453269_2_alg».proof.Proof.RefSpec
import proofs.«431062_j3092376453269_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.NodeAlg

open Idealize.ShloMosaic ValueIdx

/-! ## A block-diagonal matrix built from two rows of two pieces, read at an entry -/

section Block
variable {α : Type} {m0 m1 n0 n1 : Nat}

/-- Upper left block: the matrix. -/
theorem block_ll (A Z : (⟨2, ![m0, m1]⟩ : Shape).Idx → α)
    (hrow : Shape.Concatenates [(⟨2, ![m0, m1]⟩ : Shape), ⟨2, ![m0, m1]⟩] ⟨2, ![m0, n1]⟩ 1)
    (hcol : Shape.Concatenates [(⟨2, ![m0, n1]⟩ : Shape), ⟨2, ![m0, n1]⟩] ⟨2, ![n0, n1]⟩ 0)
    (J : Fin n0) (c : Fin n1) (a : Fin m0) (b : Fin m1) (hJ : J.val = a.val) (hc : c.val = b.val) :
    concatenate ⟨2, ![n0, n1]⟩ 0
      [⟨⟨2, ![m0, n1]⟩, concatenate ⟨2, ![m0, n1]⟩ 1 [⟨⟨2, ![m0, m1]⟩, A⟩, ⟨⟨2, ![m0, m1]⟩, Z⟩] hrow⟩,
       ⟨⟨2, ![m0, n1]⟩, concatenate ⟨2, ![m0, n1]⟩ 1 [⟨⟨2, ![m0, m1]⟩, Z⟩, ⟨⟨2, ![m0, m1]⟩, A⟩] hrow⟩] hcol (ix2 J c)
      = A (ix2 a b) := by
  refine (concatenate_pair_apply_left (t := ⟨2, ![n0, n1]⟩) (s₁ := ⟨2, ![m0, n1]⟩) (s₂ := ⟨2, ![m0, n1]⟩) (0 : Fin 2) _ _ hcol
    (ix2 J c) rfl (ix2 a c) (by
      intro d
      match d with
      | ⟨0, _⟩ => exact hJ.symm
      | ⟨1, _⟩ => rfl)).trans ?_
  exact concatenate_pair_apply_left (t := ⟨2, ![m0, n1]⟩) (s₁ := ⟨2, ![m0, m1]⟩) (s₂ := ⟨2, ![m0, m1]⟩) (1 : Fin 2) A Z hrow
    (ix2 a c) rfl (ix2 a b) (by
      intro d
      match d with
      | ⟨0, _⟩ => rfl
      | ⟨1, _⟩ => exact hc.symm)

/-- Upper right block: the filler. -/
theorem block_lr (A Z : (⟨2, ![m0, m1]⟩ : Shape).Idx → α)
    (hrow : Shape.Concatenates [(⟨2, ![m0, m1]⟩ : Shape), ⟨2, ![m0, m1]⟩] ⟨2, ![m0, n1]⟩ 1)
    (hcol : Shape.Concatenates [(⟨2, ![m0, n1]⟩ : Shape), ⟨2, ![m0, n1]⟩] ⟨2, ![n0, n1]⟩ 0)
    (J : Fin n0) (c : Fin n1) (a : Fin m0) (b : Fin m1) (hJ : J.val = a.val) (hc : c.val = m1 + b.val) :
    concatenate ⟨2, ![n0, n1]⟩ 0
      [⟨⟨2, ![m0, n1]⟩, concatenate ⟨2, ![m0, n1]⟩ 1 [⟨⟨2, ![m0, m1]⟩, A⟩, ⟨⟨2, ![m0, m1]⟩, Z⟩] hrow⟩,
       ⟨⟨2, ![m0, n1]⟩, concatenate ⟨2, ![m0, n1]⟩ 1 [⟨⟨2, ![m0, m1]⟩, Z⟩, ⟨⟨2, ![m0, m1]⟩, A⟩] hrow⟩] hcol (ix2 J c)
      = Z (ix2 a b) := by
  refine (concatenate_pair_apply_left (t := ⟨2, ![n0, n1]⟩) (s₁ := ⟨2, ![m0, n1]⟩) (s₂ := ⟨2, ![m0, n1]⟩) (0 : Fin 2) _ _ hcol
    (ix2 J c) rfl (ix2 a c) (by
      intro d
      match d with
      | ⟨0, _⟩ => exact hJ.symm
      | ⟨1, _⟩ => rfl)).trans ?_
  exact concatenate_pair_apply_right (t := ⟨2, ![m0, n1]⟩) (s₁ := ⟨2, ![m0, m1]⟩) (s₂ := ⟨2, ![m0, m1]⟩) (1 : Fin 2) A Z hrow
    (ix2 a c) rfl rfl (ix2 a b) (by
      intro d hd
      match d with
      | ⟨0, _⟩ => rfl
      | ⟨1, _⟩ => exact absurd rfl hd) (by
      show b.val + m1 = c.val; omega)

/-- Lower left block: the filler. -/
theorem block_rl (A Z : (⟨2, ![m0, m1]⟩ : Shape).Idx → α)
    (hrow : Shape.Concatenates [(⟨2, ![m0, m1]⟩ : Shape), ⟨2, ![m0, m1]⟩] ⟨2, ![m0, n1]⟩ 1)
    (hcol : Shape.Concatenates [(⟨2, ![m0, n1]⟩ : Shape), ⟨2, ![m0, n1]⟩] ⟨2, ![n0, n1]⟩ 0)
    (J : Fin n0) (c : Fin n1) (a : Fin m0) (b : Fin m1) (hJ : J.val = m0 + a.val) (hc : c.val = b.val) :
    concatenate ⟨2, ![n0, n1]⟩ 0
      [⟨⟨2, ![m0, n1]⟩, concatenate ⟨2, ![m0, n1]⟩ 1 [⟨⟨2, ![m0, m1]⟩, A⟩, ⟨⟨2, ![m0, m1]⟩, Z⟩] hrow⟩,
       ⟨⟨2, ![m0, n1]⟩, concatenate ⟨2, ![m0, n1]⟩ 1 [⟨⟨2, ![m0, m1]⟩, Z⟩, ⟨⟨2, ![m0, m1]⟩, A⟩] hrow⟩] hcol (ix2 J c)
      = Z (ix2 a b) := by
  refine (concatenate_pair_apply_right (t := ⟨2, ![n0, n1]⟩) (s₁ := ⟨2, ![m0, n1]⟩) (s₂ := ⟨2, ![m0, n1]⟩) (0 : Fin 2) _ _ hcol
    (ix2 J c) rfl rfl (ix2 a c) (by
      intro d hd
      match d with
      | ⟨0, _⟩ => exact absurd rfl hd
      | ⟨1, _⟩ => rfl) (by
      show a.val + m0 = J.val; omega)).trans ?_
  exact concatenate_pair_apply_left (t := ⟨2, ![m0, n1]⟩) (s₁ := ⟨2, ![m0, m1]⟩) (s₂ := ⟨2, ![m0, m1]⟩) (1 : Fin 2) Z A hrow
    (ix2 a c) rfl (ix2 a b) (by
      intro d
      match d with
      | ⟨0, _⟩ => rfl
      | ⟨1, _⟩ => exact hc.symm)

/-- Lower right block: the matrix. -/
theorem block_rr (A Z : (⟨2, ![m0, m1]⟩ : Shape).Idx → α)
    (hrow : Shape.Concatenates [(⟨2, ![m0, m1]⟩ : Shape), ⟨2, ![m0, m1]⟩] ⟨2, ![m0, n1]⟩ 1)
    (hcol : Shape.Concatenates [(⟨2, ![m0, n1]⟩ : Shape), ⟨2, ![m0, n1]⟩] ⟨2, ![n0, n1]⟩ 0)
    (J : Fin n0) (c : Fin n1) (a : Fin m0) (b : Fin m1) (hJ : J.val = m0 + a.val) (hc : c.val = m1 + b.val) :
    concatenate ⟨2, ![n0, n1]⟩ 0
      [⟨⟨2, ![m0, n1]⟩, concatenate ⟨2, ![m0, n1]⟩ 1 [⟨⟨2, ![m0, m1]⟩, A⟩, ⟨⟨2, ![m0, m1]⟩, Z⟩] hrow⟩,
       ⟨⟨2, ![m0, n1]⟩, concatenate ⟨2, ![m0, n1]⟩ 1 [⟨⟨2, ![m0, m1]⟩, Z⟩, ⟨⟨2, ![m0, m1]⟩, A⟩] hrow⟩] hcol (ix2 J c)
      = A (ix2 a b) := by
  refine (concatenate_pair_apply_right (t := ⟨2, ![n0, n1]⟩) (s₁ := ⟨2, ![m0, n1]⟩) (s₂ := ⟨2, ![m0, n1]⟩) (0 : Fin 2) _ _ hcol
    (ix2 J c) rfl rfl (ix2 a c) (by
      intro d hd
      match d with
      | ⟨0, _⟩ => exact absurd rfl hd
      | ⟨1, _⟩ => rfl) (by
      show a.val + m0 = J.val; omega)).trans ?_
  exact concatenate_pair_apply_right (t := ⟨2, ![m0, n1]⟩) (s₁ := ⟨2, ![m0, m1]⟩) (s₂ := ⟨2, ![m0, m1]⟩) (1 : Fin 2) Z A hrow
    (ix2 a c) rfl rfl (ix2 a b) (by
      intro d hd
      match d with
      | ⟨0, _⟩ => rfl
      | ⟨1, _⟩ => exact absurd rfl hd) (by
      show b.val + m1 = c.val; omega)

end Block

/-! ## The packed weights and biases read at an entry -/

/-- A broadcast zero constant is zero at every index. -/
theorem zeros_apply {s : Shape} (hb : Cert.KernelIdeal.S_.BroadcastsInDim s ![]) (i : s.Idx) :
    broadcastInDim s ![] hb (constant (F := Ideal) Cert.KernelIdeal.S_ .f32 0x00000000#32) i = (0 : EReal) := by
  refine (broadcastInDim_apply _ hb _ i ix0 (fun a => a.elim0)).trans ?_
  exact Ideal.ofBits_zero_f32

/-- The packed second weight at row 128·h' + J, column 64·h + j: the transposed weight on the diagonal blocks, zero off them. -/
theorem kW1_at (a7 : FVec Ideal Cert.KernelIdeal.S64x128 .f32) (h h' : Fin 2) (J : Fin 128) (j : Fin 64) :
    Cert.Spec.kW1 a7 (ix2 (⟨128 * h'.val + J.val, by omega⟩ : Fin 256) (⟨64 * h.val + j.val, by omega⟩ : Fin 128))
      = if h' = h then a7 (ix2 j J) else 0 := by
  have hh : h.val = 0 ∨ h.val = 1 := by omega
  have hh' : h'.val = 0 ∨ h'.val = 1 := by omega
  have hA : ∀ (J : Fin 128) (j : Fin 64), transpose Cert.KernelIdeal.S128x64 [1, 0] a7
      Cert.KernelIdeal.Facts₀.transposes_S64x128_S128x64_1_0 (ix2 J j) = a7 (ix2 j J) := fun J j =>
    transpose_apply [1, 0] a7 _ (ix2 J j) (ix2 j J) (fun b => match b with
      | ⟨0, _⟩ => rfl
      | ⟨1, _⟩ => rfl)
  unfold Cert.Spec.kW1
  by_cases e : h' = h
  · rw [if_pos e]
    subst e
    rcases hh' with h0 | h1
    · refine (block_ll _ _ _ _ _ _ J j ?_ ?_).trans (hA J j)
      · show 128 * h'.val + J.val = J.val; omega
      · show 64 * h'.val + j.val = j.val; omega
    · refine (block_rr _ _ _ _ _ _ J j ?_ ?_).trans (hA J j)
      · show 128 * h'.val + J.val = 128 + J.val; omega
      · show 64 * h'.val + j.val = 64 + j.val; omega
  · rw [if_neg e]
    have e' : h'.val ≠ h.val := fun q => e (Fin.ext q)
    rcases hh' with h0 | h1
    · refine (block_lr _ _ _ _ _ _ J j ?_ ?_).trans (zeros_apply _ _)
      · show 128 * h'.val + J.val = J.val; omega
      · show 64 * h.val + j.val = 64 + j.val; omega
    · refine (block_rl _ _ _ _ _ _ J j ?_ ?_).trans (zeros_apply _ _)
      · show 128 * h'.val + J.val = 128 + J.val; omega
      · show 64 * h.val + j.val = j.val; omega

/-- The packed first weight at row 64·h' + k, column 128·h + J: the transposed weight on the diagonal blocks, zero off them. -/
theorem kW0_at (a5 : FVec Ideal Cert.KernelIdeal.S128x64 .f32) (h h' : Fin 2) (k : Fin 64) (J : Fin 128) :
    Cert.Spec.kW0 a5 (ix2 (⟨64 * h'.val + k.val, by omega⟩ : Fin 128) (⟨128 * h.val + J.val, by omega⟩ : Fin 256))
      = if h' = h then a5 (ix2 J k) else 0 := by
  have hh : h.val = 0 ∨ h.val = 1 := by omega
  have hh' : h'.val = 0 ∨ h'.val = 1 := by omega
  have hA : ∀ (k : Fin 64) (J : Fin 128), transpose Cert.KernelIdeal.S64x128 [1, 0] a5
      Cert.KernelIdeal.Facts₀.transposes_S128x64_S64x128_1_0 (ix2 k J) = a5 (ix2 J k) := fun k J =>
    transpose_apply [1, 0] a5 _ (ix2 k J) (ix2 J k) (fun b => match b with
      | ⟨0, _⟩ => rfl
      | ⟨1, _⟩ => rfl)
  unfold Cert.Spec.kW0
  by_cases e : h' = h
  · rw [if_pos e]
    subst e
    rcases hh' with h0 | h1
    · refine (block_ll _ _ _ _ _ _ k J ?_ ?_).trans (hA k J)
      · show 64 * h'.val + k.val = k.val; omega
      · show 128 * h'.val + J.val = J.val; omega
    · refine (block_rr _ _ _ _ _ _ k J ?_ ?_).trans (hA k J)
      · show 64 * h'.val + k.val = 64 + k.val; omega
      · show 128 * h'.val + J.val = 128 + J.val; omega
  · rw [if_neg e]
    have e' : h'.val ≠ h.val := fun q => e (Fin.ext q)
    rcases hh' with h0 | h1
    · refine (block_lr _ _ _ _ _ _ k J ?_ ?_).trans (zeros_apply _ _)
      · show 64 * h'.val + k.val = k.val; omega
      · show 128 * h.val + J.val = 128 + J.val; omega
    · refine (block_rl _ _ _ _ _ _ k J ?_ ?_).trans (zeros_apply _ _)
      · show 64 * h'.val + k.val = 64 + k.val; omega
      · show 128 * h.val + J.val = J.val; omega

/-- A vector laid twice end to end, read at entry m·h + a of either copy. -/
theorem twice_apply {α : Type} {m n : Nat} (x : (⟨1, ![m]⟩ : Shape).Idx → α)
    (hc : Shape.Concatenates [(⟨1, ![m]⟩ : Shape), ⟨1, ![m]⟩] ⟨1, ![n]⟩ 0)
    (c : Fin n) (a : Fin m) (hca : c.val = a.val ∨ c.val = m + a.val) :
    concatenate ⟨1, ![n]⟩ 0 [⟨⟨1, ![m]⟩, x⟩, ⟨⟨1, ![m]⟩, x⟩] hc (ix1 c) = x (ix1 a) := by
  rcases hca with e | e
  · exact concatenate_pair_apply_left (t := ⟨1, ![n]⟩) (s₁ := ⟨1, ![m]⟩) (s₂ := ⟨1, ![m]⟩) (0 : Fin 1) x x hc (ix1 c) rfl (ix1 a) (by
      intro d
      match d with
      | ⟨0, _⟩ => exact e.symm)
  · exact concatenate_pair_apply_right (t := ⟨1, ![n]⟩) (s₁ := ⟨1, ![m]⟩) (s₂ := ⟨1, ![m]⟩) (0 : Fin 1) x x hc (ix1 c) rfl rfl (ix1 a) (by
      intro d hd
      match d with
      | ⟨0, _⟩ => exact absurd rfl hd) (by
      show a.val + m = c.val; omega)

/-- The doubled first bias at 128·h + J. -/
theorem kB0_at (a6 : FVec Ideal Cert.KernelIdeal.S128 .f32) (h : Fin 2) (J : Fin 128) :
    Cert.Spec.kB0 a6 (ix1 (⟨128 * h.val + J.val, by omega⟩ : Fin 256)) = a6 (ix1 J) := by
  unfold Cert.Spec.kB0
  refine twice_apply a6 _ _ J ?_
  show 128 * h.val + J.val = J.val ∨ 128 * h.val + J.val = 128 + J.val
  omega

/-- The doubled second bias at 64·h + j. -/
theorem kB1_at (a8 : FVec Ideal Cert.KernelIdeal.S64 .f32) (h : Fin 2) (j : Fin 64) :
    Cert.Spec.kB1 a8 (ix1 (⟨64 * h.val + j.val, by omega⟩ : Fin 128)) = a8 (ix1 j) := by
  unfold Cert.Spec.kB1
  refine twice_apply a8 _ _ j ?_
  show 64 * h.val + j.val = j.val ∨ 64 * h.val + j.val = 64 + j.val
  omega

/-! ## Sums over a doubled range -/

/-- A sum over 256 terms as the two halves of 128. -/
theorem sum_halves_128 {M : Type} [AddCommMonoid M] (F : Fin 256 → M) :
    ∑ J, F J = ∑ h' : Fin 2, ∑ J' : Fin 128, F ⟨128 * h'.val + J'.val, by omega⟩ := by
  rw [Fin.sum_univ_two]
  refine (Fin.sum_univ_add (a := 128) (b := 128) F).trans ?_
  congr 1

/-- A sum over 128 terms as the two halves of 64. -/
theorem sum_halves_64 {M : Type} [AddCommMonoid M] (F : Fin 128 → M) :
    ∑ k, F k = ∑ h' : Fin 2, ∑ k' : Fin 64, F ⟨64 * h'.val + k'.val, by omega⟩ := by
  rw [Fin.sum_univ_two]
  refine (Fin.sum_univ_add (a := 64) (b := 64) F).trans ?_
  congr 1

/-- A product summed against a matrix column that is zero outside the half h keeps only the half h. -/
theorem sum_diag {m : Nat} (h : Fin 2) (g w : Fin 2 → Fin m → EReal) (a : Fin m → EReal)
    (hw : ∀ h' J, w h' J = if h' = h then a J else 0) :
    ∑ h' : Fin 2, ∑ J : Fin m, g h' J * w h' J = ∑ J : Fin m, g h J * a J := by
  rw [Finset.sum_eq_single h]
  · refine Finset.sum_congr rfl fun J _ => ?_
    rw [hw, if_pos rfl]
  · intro h' _ hne
    refine Finset.sum_eq_zero fun J _ => ?_
    rw [hw, if_neg hne, mul_zero]
  · intro hn
    exact absurd (Finset.mem_univ h) hn

/-! ## The node stage on packed rows, in terms of the unpacked weights -/

/-- The hidden layer at packed row r, column 128·h + J: only the half h of the packed row meets the weight. -/
theorem hidAt_packed (xp ap : FVec Ideal Cert.KernelIdeal.S50000x128 .f32) (a5 : FVec Ideal Cert.KernelIdeal.S128x64 .f32)
    (a6 : FVec Ideal Cert.KernelIdeal.S128 .f32) (r : Fin 50000) (h : Fin 2) (J : Fin 128) :
    Cert.Spec.hidAt xp ap (Cert.Spec.kW0 a5) (Cert.Spec.kB0 a6) r (⟨128 * h.val + J.val, by omega⟩ : Fin 256)
      = max ((∑ k : Fin 64, (Ideal.ofBits .f32 0x3F800000#32 * xp (ix2 r (⟨64 * h.val + k.val, by omega⟩ : Fin 128))
          + ap (ix2 r (⟨64 * h.val + k.val, by omega⟩ : Fin 128))) * a5 (ix2 J k)) + a6 (ix1 J)) 0 := by
  have hs := sum_diag h
    (fun h' k => Ideal.ofBits .f32 0x3F800000#32 * xp (ix2 r (⟨64 * h'.val + k.val, by omega⟩ : Fin 128))
      + ap (ix2 r (⟨64 * h'.val + k.val, by omega⟩ : Fin 128)))
    (fun h' k => Cert.Spec.kW0 a5 (ix2 (⟨64 * h'.val + k.val, by omega⟩ : Fin 128) (⟨128 * h.val + J.val, by omega⟩ : Fin 256)))
    (fun k => a5 (ix2 J k)) (fun h' k => kW0_at a5 h h' k J)
  unfold Cert.Spec.hidAt
  rw [kB0_at, sum_halves_64]
  exact congrArg (fun t : EReal => max (t + a6 (ix1 J)) 0) hs

/-- The node stage at packed row r, column 64·h + j: only the half h of the hidden row meets the weight. -/
theorem nodeAt_packed (xp ap : FVec Ideal Cert.KernelIdeal.S50000x128 .f32) (a5 : FVec Ideal Cert.KernelIdeal.S128x64 .f32)
    (a6 : FVec Ideal Cert.KernelIdeal.S128 .f32) (a7 : FVec Ideal Cert.KernelIdeal.S64x128 .f32)
    (a8 : FVec Ideal Cert.KernelIdeal.S64 .f32) (r : Fin 50000) (h : Fin 2) (j : Fin 64) :
    Cert.Spec.nodeAt xp ap (Cert.Spec.kW0 a5) (Cert.Spec.kB0 a6) (Cert.Spec.kW1 a7) (Cert.Spec.kB1 a8) r
        (⟨64 * h.val + j.val, by omega⟩ : Fin 128)
      = (∑ J : Fin 128, max ((∑ k : Fin 64, (Ideal.ofBits .f32 0x3F800000#32 * xp (ix2 r (⟨64 * h.val + k.val, by omega⟩ : Fin 128))
          + ap (ix2 r (⟨64 * h.val + k.val, by omega⟩ : Fin 128))) * a5 (ix2 J k)) + a6 (ix1 J)) 0 * a7 (ix2 j J))
        + a8 (ix1 j) := by
  have hs := sum_diag h
    (fun h' J => Cert.Spec.hidAt xp ap (Cert.Spec.kW0 a5) (Cert.Spec.kB0 a6) r (⟨128 * h'.val + J.val, by omega⟩ : Fin 256))
    (fun h' J => Cert.Spec.kW1 a7 (ix2 (⟨128 * h'.val + J.val, by omega⟩ : Fin 256) (⟨64 * h.val + j.val, by omega⟩ : Fin 128)))
    (fun J => a7 (ix2 j J)) (fun h' J => kW1_at a7 h h' J j)
  unfold Cert.Spec.nodeAt
  rw [kB1_at, sum_halves_128]
  refine (congrArg (fun t : EReal => t + a8 (ix1 j)) hs).trans ?_
  refine congrArg (fun t : EReal => t + a8 (ix1 j)) ?_
  refine Finset.sum_congr rfl fun J _ => ?_
  rw [hidAt_packed]

/-- Two consecutive rows of width 64 packed into one row of width 128: entry (n, k) is entry (n div 2, 64·(n mod 2) + k). -/
theorem pack_at (x : FVec Ideal Cert.KernelIdeal.S100000x64 .f32)
    (hc : Cert.KernelIdeal.S100000x64.ShapeCasts Cert.KernelIdeal.S50000x128)
    (n : Fin 100000) (k : Fin 64) (r : Fin 50000) (c : Fin 128) (hr : r.val = n.val / 2) (hcv : c.val = 64 * (n.val % 2) + k.val) :
    shapeCast Cert.KernelIdeal.S50000x128 x hc (ix2 r c) = x (ix2 n k) := by
  refine shapeCast_apply x hc (ix2 r c) (ix2 n k) ?_
  rw [Shape.rowMajor_val_two, Shape.rowMajor_val_two]
  show n.val * 64 + k.val = r.val * 128 + c.val
  omega

/-- The kernel's result at row n, column j. -/
theorem kOut_at (a0 agg : FVec Ideal Cert.KernelIdeal.S100000x64 .f32) (a5 : FVec Ideal Cert.KernelIdeal.S128x64 .f32)
    (a6 : FVec Ideal Cert.KernelIdeal.S128 .f32) (a7 : FVec Ideal Cert.KernelIdeal.S64x128 .f32)
    (a8 : FVec Ideal Cert.KernelIdeal.S64 .f32) (n : Fin 100000) (j : Fin 64) :
    Cert.Spec.kOut a0 agg a5 a6 a7 a8 (ix2 n j)
      = (∑ J : Fin 128, max ((∑ k : Fin 64, (Ideal.ofBits .f32 0x3F800000#32 * a0 (ix2 n k) + agg (ix2 n k)) * a5 (ix2 J k))
          + a6 (ix1 J)) 0 * a7 (ix2 j J)) + a8 (ix1 j) := by
  obtain ⟨r, hr⟩ : ∃ r : Fin 50000, r.val = n.val / 2 := ⟨⟨n.val / 2, by omega⟩, rfl⟩
  obtain ⟨h, hh⟩ : ∃ h : Fin 2, h.val = n.val % 2 := ⟨⟨n.val % 2, by omega⟩, rfl⟩
  unfold Cert.Spec.kOut
  refine (shapeCast_apply _ _ (ix2 n j) (ix2 r (⟨64 * h.val + j.val, by omega⟩ : Fin 128)) ?_).trans ?_
  · rw [Shape.rowMajor_val_two, Shape.rowMajor_val_two]
    show r.val * 128 + (64 * h.val + j.val) = n.val * 64 + j.val
    omega
  · show Cert.Spec.nodeAt _ _ _ _ _ _ r (⟨64 * h.val + j.val, by omega⟩ : Fin 128) = _
    rw [nodeAt_packed]
    refine congrArg (fun t : EReal => t + a8 (ix1 j)) ?_
    refine Finset.sum_congr rfl fun J _ => ?_
    refine congrArg (fun t : EReal => max (t + a6 (ix1 J)) 0 * a7 (ix2 j J)) ?_
    refine Finset.sum_congr rfl fun k _ => ?_
    rw [pack_at a0 _ n k r _ hr (by show 64 * h.val + k.val = 64 * (n.val % 2) + k.val; omega),
      pack_at agg _ n k r _ hr (by show 64 * h.val + k.val = 64 * (n.val % 2) + k.val; omega)]

/-! ## The reference's node formula read at an entry -/

/-- A broadcast constant reads the extended real its word encodes at every index. -/
theorem splat_apply {s : Shape} (hb : (⟨0, ![]⟩ : Shape).BroadcastsInDim s ![]) (w : BitVec 32) (i : s.Idx) :
    broadcastInDim s ![] hb (constant (F := Ideal) (⟨0, ![]⟩ : Shape) .f32 w) i = Ideal.ofBits .f32 w :=
  broadcastInDim_apply _ hb _ i ix0 (fun a => a.elim0)

/-- A vector broadcast along the rows of a matrix reads its entry at the column. -/
theorem bias_row_apply {α : Type} {m n : Nat} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (hn : n ≠ 1) (a : Fin m) (b : Fin n) :
    broadcastInDim ⟨2, ![m, n]⟩ ![0, 1] h2 (broadcastInDim ⟨2, ![1, n]⟩ ![1] h1 x) (ix2 a b) = x (ix1 b) := by
  refine (broadcastInDim_apply _ h2 _ (ix2 a b) (ix2 (0 : Fin 1) b) (fun d => match d with
    | ⟨0, _⟩ => by show 0 = if (1 : Nat) = 1 then 0 else a.val; rw [if_pos rfl]
    | ⟨1, _⟩ => by show b.val = if n = 1 then 0 else b.val; rw [if_neg hn])).trans ?_
  exact broadcastInDim_apply _ h1 x (ix2 (0 : Fin 1) b) (ix1 b) (fun d => match d with
    | ⟨0, _⟩ => by show b.val = if n = 1 then 0 else b.val; rw [if_neg hn])

/-- The first product of the reference at an entry: the sum over the 64 features. -/
theorem dot1_apply (y0 : FVec Ideal Cert.ReferenceIdeal.S100000x64 .f32) (y1 : FVec Ideal Cert.ReferenceIdeal.S64x128 .f32)
    (n : Fin 100000) (J : Fin 128) :
    Host.dotGeneral Cert.ReferenceIdeal.dot_S100000x64_S64x128_S100000x128_1_0_0_1_n_n none y0 y1 (ix2 n J)
      = ∑ k : Fin 64, y0 (ix2 n k) * y1 (ix2 k J) := by
  simp only [Host.dotGeneral]
  rw [Ideal.dotGeneral_apply, ← Equiv.sum_comp (ValueIdx.contrEquiv1 Cert.ReferenceIdeal.dot_S100000x64_S64x128_S100000x128_1_0_0_1_n_n 64 rfl rfl).symm]
  refine Finset.sum_congr rfl fun k _ => ?_
  have hk := ValueIdx.contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 n J)
      ((ValueIdx.contrEquiv1 Cert.ReferenceIdeal.dot_S100000x64_S64x128_S100000x128_1_0_0_1_n_n 64 rfl rfl).symm k) = ix2 n k :=
    funext fun a => Fin.ext (by
      match a with
      | ⟨0, _⟩ => exact Cert.ReferenceIdeal.Read.lhs_main_v25_0 _ _
      | ⟨1, _⟩ => exact (Cert.ReferenceIdeal.Read.lhs_main_v25_1 _ _).trans hk)
  have er : Cert.ReferenceIdeal.dot_S100000x64_S64x128_S100000x128_1_0_0_1_n_n.rhsIdx (ix2 n J)
      ((ValueIdx.contrEquiv1 Cert.ReferenceIdeal.dot_S100000x64_S64x128_S100000x128_1_0_0_1_n_n 64 rfl rfl).symm k) = ix2 k J :=
    funext fun a => Fin.ext (by
      match a with
      | ⟨0, _⟩ => exact (Cert.ReferenceIdeal.Read.rhs_main_v25_0 _ _).trans hk
      | ⟨1, _⟩ => exact Cert.ReferenceIdeal.Read.rhs_main_v25_1 _ _)
  rw [el, er]

/-- The second product of the reference at an entry: the sum over the 128 hidden features. -/
theorem dot2_apply (y0 : FVec Ideal Cert.ReferenceIdeal.S100000x128 .f32) (y1 : FVec Ideal Cert.ReferenceIdeal.S128x64 .f32)
    (n : Fin 100000) (j : Fin 64) :
    Host.dotGeneral Cert.ReferenceIdeal.dot_S100000x128_S128x64_S100000x64_1_0_0_1_n_n none y0 y1 (ix2 n j)
      = ∑ J : Fin 128, y0 (ix2 n J) * y1 (ix2 J j) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 n j)
      ((ValueIdx.contrEquiv1 Cert.ReferenceIdeal.dot_S100000x128_S128x64_S100000x64_1_0_0_1_n_n 128 rfl rfl).symm k) = ix2 n k :=
    funext fun a => Fin.ext (by
      match a with
      | ⟨0, _⟩ => exact Cert.ReferenceIdeal.Read.lhs_main_v31_0 _ _
      | ⟨1, _⟩ => exact (Cert.ReferenceIdeal.Read.lhs_main_v31_1 _ _).trans hk)
  have er : Cert.ReferenceIdeal.dot_S100000x128_S128x64_S100000x64_1_0_0_1_n_n.rhsIdx (ix2 n j)
      ((ValueIdx.contrEquiv1 Cert.ReferenceIdeal.dot_S100000x128_S128x64_S100000x64_1_0_0_1_n_n 128 rfl rfl).symm k) = ix2 k j :=
    funext fun a => Fin.ext (by
      match a with
      | ⟨0, _⟩ => exact (Cert.ReferenceIdeal.Read.rhs_main_v31_0 _ _).trans hk
      | ⟨1, _⟩ => exact Cert.ReferenceIdeal.Read.rhs_main_v31_1 _ _)
  rw [el, er]

/-- The reference's result at row n, column j. -/
theorem rOut_at (a0 agg : FVec Ideal Cert.ReferenceIdeal.S100000x64 .f32) (a5 : FVec Ideal Cert.ReferenceIdeal.S128x64 .f32)
    (a6 : FVec Ideal Cert.ReferenceIdeal.S128 .f32) (a7 : FVec Ideal Cert.ReferenceIdeal.S64x128 .f32)
    (a8 : FVec Ideal Cert.ReferenceIdeal.S64 .f32) (n : Fin 100000) (j : Fin 64) :
    Cert.RefSpec.rOut a0 agg a5 a6 a7 a8 (ix2 n j)
      = (∑ J : Fin 128, max ((∑ k : Fin 64, (Ideal.ofBits .f32 0x3F800000#32 * a0 (ix2 n k) + agg (ix2 n k)) * a5 (ix2 J k))
          + a6 (ix1 J)) 0 * a7 (ix2 j J)) + a8 (ix1 j) := by
  unfold Cert.RefSpec.rOut
  refine (addf_apply _ _ _).trans ?_
  refine congrArg₂ (fun x y : EReal => x + y) ?_ (bias_row_apply a8 _ _ (by decide) n j)
  refine (dot2_apply _ _ n j).trans ?_
  refine Finset.sum_congr rfl fun J _ => ?_
  refine congrArg₂ (fun x y : EReal => x * y) ?_
    (transpose_apply [1, 0] a7 _ (ix2 J j) (ix2 j J) (fun b => match b with
      | ⟨0, _⟩ => rfl
      | ⟨1, _⟩ => rfl))
  refine (maximumf_apply _ _ _).trans ?_
  refine congrArg₂ (fun x y : EReal => max x y) ?_ ((splat_apply _ _ _).trans Ideal.ofBits_zero_f32)
  refine (addf_apply _ _ _).trans ?_
  refine congrArg₂ (fun x y : EReal => x + y) ?_ (bias_row_apply a6 _ _ (by decide) n J)
  refine (dot1_apply _ _ n J).trans ?_
  refine Finset.sum_congr rfl fun k _ => ?_
  refine congrArg₂ (fun x y : EReal => x * y) ?_
    (transpose_apply [1, 0] a5 _ (ix2 k J) (ix2 J k) (fun b => match b with
      | ⟨0, _⟩ => rfl
      | ⟨1, _⟩ => rfl))
  refine (addf_apply _ _ _).trans ?_
  refine congrArg₂ (fun x y : EReal => x + y) ?_ rfl
  refine (mulf_apply _ _ _).trans ?_
  exact congrArg₂ (fun x y : EReal => x * y) (splat_apply _ _ _) rfl

/-- For any summed-message array agg, the kernel's result is the reference's. -/
theorem out_eq (a0 agg : FVec Ideal Cert.KernelIdeal.S100000x64 .f32) (a5 : FVec Ideal Cert.KernelIdeal.S128x64 .f32)
    (a6 : FVec Ideal Cert.KernelIdeal.S128 .f32) (a7 : FVec Ideal Cert.KernelIdeal.S64x128 .f32)
    (a8 : FVec Ideal Cert.KernelIdeal.S64 .f32) :
    Cert.Spec.kOut a0 agg a5 a6 a7 a8 = Cert.RefSpec.rOut a0 agg a5 a6 a7 a8 := by
  funext i
  obtain ⟨n, j, rfl⟩ : ∃ (n : Fin 100000) (j : Fin 64), i = ix2 n j := ⟨i 0, i 1, eq_ix2 i⟩
  exact (kOut_at a0 agg a5 a6 a7 a8 n j).trans (rOut_at a0 agg a5 a6 a7 a8 n j).symm

end Cert.NodeAlg

end
-- ==== Proof.PreIdx.lean ====
/-
  Under the precondition every source index lies in [-100000, 100000), so counted from the end when negative it is a
  row of the node table, the kernel's in-range test holds at every edge, and its guarded gather is the plain gather.
-/
import proofs.«431062_j3092376453269_2_alg».proof.Proof.Spec
import proofs.«431062_j3092376453269_2_alg».proof.Proof.Gen.Pre_finite_inputs
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

namespace Cert.PreIdx

open Idealize.ShloMosaic ValueIdx

/-- A scalar index type has one element. -/
instance : Subsingleton Cert.Pre_finite_inputs.S_.Idx := ⟨fun a b => funext fun d => d.elim0⟩

/-- Row 0 of the edge index array, as a vector, read at edge e. -/
theorem row0_apply (a1 : IVec Cert.KernelIdeal.S2x1600000 32)
    (hs : Cert.KernelIdeal.S2x1600000.Slices ![0, 0] Cert.KernelIdeal.S1x1600000)
    (hc : Cert.KernelIdeal.S1x1600000.ShapeCasts Cert.KernelIdeal.S1600000) (e : Fin 1600000) :
    shapeCast Cert.KernelIdeal.S1600000 (extractStridedSlice Cert.KernelIdeal.S1x1600000 ![0, 0] a1 hs) hc (ix1 e)
      = a1 (ix2 (0 : Fin 2) e) :=
  (shapeCast_1a_a_apply _ hc e).trans
    (extractStridedSlice_apply _ _ hs (ix2 (0 : Fin 1) e) (ix2 (0 : Fin 2) e) (by
      intro a
      match a with
      | ⟨0, _⟩ => rfl
      | ⟨1, _⟩ => show e.val = 0 + e.val; omega))

theorem toInt_lo : (4294867296#32 : BitVec 32).toInt = -100000 := by decide
theorem toInt_hi : (100000#32 : BitVec 32).toInt = 100000 := by decide

/-- The precondition bounds every source index. -/
theorem src_range (a0 : FVec Ideal Cert.KernelIdeal.S100000x64 .f32) (a1 : IVec Cert.KernelIdeal.S2x1600000 32)
    (a2 : FVec Ideal Cert.KernelIdeal.S1600000x64 .f32) (a3 : FVec Ideal Cert.KernelIdeal.S64x64 .f32)
    (a4 : FVec Ideal Cert.KernelIdeal.S64 .f32) (a5 : FVec Ideal Cert.KernelIdeal.S128x64 .f32)
    (a6 : FVec Ideal Cert.KernelIdeal.S128 .f32) (a7 : FVec Ideal Cert.KernelIdeal.S64x128 .f32)
    (a8 : FVec Ideal Cert.KernelIdeal.S64 .f32)
    (hpre : Cert.Pre_finite_inputs.fn (F := Ideal) a0 a1 a2 a3 a4 a5 a6 a7 a8 = fun _ => 1#1) :
    ∀ e : Fin 1600000, (-100000 : Int) ≤ (a1 (ix2 (0 : Fin 2) e)).toInt ∧ (a1 (ix2 (0 : Fin 2) e)).toInt < 100000 := by
  intro e
  have h0 := congrFun hpre ValueIdx.ix0
  dsimp only [Cert.Pre_finite_inputs.fn, Cert.Pre_finite_inputs.fn_part1, Cert.Pre_finite_inputs.fn_part2] at h0
  obtain ⟨h44, h49⟩ := IntOp.andi_eq_one.1 h0
  obtain ⟨-, h43⟩ := IntOp.andi_eq_one.1 h44
  clear h0 h44
  have g43 := Host.reduce_andi_all _ _ _ _ _ h43 (ix1 e)
  have g49 := Host.reduce_andi_all _ _ _ _ _ h49 (ix1 e)
  clear h43 h49
  have l43 := IntOp.cmpi_sge.1 g43
  have l49 := IntOp.cmpi_slt.1 g49
  rw [row0_apply] at l43 l49
  exact ⟨toInt_lo ▸ l43, toInt_hi ▸ l49⟩

/-- A left fold by `and` over words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and`, from 1, of an array that is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x _ fun n _ => hx n

/-- A source index in [-100000, 100000), counted from the end when negative, lies in [0, 99999]. -/
theorem wrap_in_range (s : BitVec 32) (h0 : (-100000 : Int) ≤ s.toInt) (h1 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have z0 : (0#32 : BitVec 32).toInt = 0 := by decide
  have z1 : (99999#32 : BitVec 32).toInt = 99999 := by decide
  have z2 : (100000#32 : BitVec 32).toInt = 100000 := by decide
  rw [IntOp.andi_eq_one, IntOp.cmpi_sge, IntOp.cmpi_sle, z0, z1]
  by_cases hs : s.toInt < 0
  · have hc : IntOp.cmpi .slt s 0#32 = 1#1 := IntOp.cmpi_slt.2 (by rw [z0]; exact hs)
    rw [hc, select_one]
    have ha : (IntOp.addi s 100000#32).toInt = s.toInt + 100000 := by
      show (s + 100000#32).toInt = _
      rw [BitVec.toInt_add, z2]
      exact Int.bmod_eq_of_le (by push_cast; omega) (by push_cast; omega)
    rw [ha]; omega
  · have hc : IntOp.cmpi .slt s 0#32 = 0#1 :=
      eq_zero_of_ne_one fun hc => hs (by have := IntOp.cmpi_slt.1 hc; rwa [z0] at this)
    rw [hc, select_zero]; omega

/-- The in-range test holds at every edge. -/
theorem mask_one (a1 : IVec Cert.KernelIdeal.S2x1600000 32)
    (h : ∀ e : Fin 1600000, (-100000 : Int) ≤ (a1 (ix2 (0 : Fin 2) e)).toInt ∧ (a1 (ix2 (0 : Fin 2) e)).toInt < 100000)
    (j : Cert.KernelIdeal.S1600000.Idx) : Cert.Spec.kMask a1 j = 1#1 := by
  unfold Cert.Spec.kMask
  refine reduce_andi_of_all _ _ _ _ j (fun i => ?_) rfl
  obtain ⟨p, q, rfl⟩ : ∃ (p : Fin 1600000) (q : Fin 1), i = ix2 p q := ⟨i 0, i 1, eq_ix2 i⟩
  have hidx : Cert.Spec.kIdx a1 (ix2 p q)
      = Scalar.select (IntOp.cmpi .slt (a1 (ix2 (0 : Fin 2) p)) 0#32) (IntOp.addi (a1 (ix2 (0 : Fin 2) p)) 100000#32)
          (a1 (ix2 (0 : Fin 2) p)) := by
    unfold Cert.Spec.kIdx
    refine (broadcastInDim_apply _ _ _ (ix2 p q) (ix1 p) (by
      intro a
      match a with
      | ⟨0, _⟩ => rfl)).trans ?_
    show Scalar.select (IntOp.cmpi .slt (Cert.Spec.kSrc a1 (ix1 p)) 0#32) (IntOp.addi (Cert.Spec.kSrc a1 (ix1 p)) 100000#32)
        (Cert.Spec.kSrc a1 (ix1 p)) = _
    have hsrc : Cert.Spec.kSrc a1 (ix1 p) = a1 (ix2 (0 : Fin 2) p) := row0_apply a1 _ _ p
    rw [hsrc]
  show IntOp.andi (IntOp.cmpi .sge (Cert.Spec.kIdx a1 (ix2 p q)) 0#32) (IntOp.cmpi .sle (Cert.Spec.kIdx a1 (ix2 p q)) 99999#32) = 1#1
  rw [hidx]
  exact wrap_in_range _ (h p).1 (h p).2

/-- A per-edge word laid along the rows of the edge features reads, at (p, q), the word of edge p. -/
theorem bcast_rows_apply {α : Type}
    (hb : Cert.KernelIdeal.S1600000.BroadcastsInDim Cert.KernelIdeal.S1600000x64 (![0] : Fin 1 → Fin Cert.KernelIdeal.S1600000x64.rank))
    (v : Cert.KernelIdeal.S1600000.Idx → α) (p : Fin 1600000) (q : Fin 64) :
    broadcastInDim Cert.KernelIdeal.S1600000x64 ![0] hb v (ix2 p q) = v (ix1 p) :=
  broadcastInDim_apply _ _ _ (ix2 p q) (ix1 p) (by
    intro a
    match a with
    | ⟨0, _⟩ => rfl)

/-- With every source index in range the kernel's guarded gather is the plain gather. -/
theorem xs_eq_gather (a0 : FVec Ideal Cert.KernelIdeal.S100000x64 .f32) (a1 : IVec Cert.KernelIdeal.S2x1600000 32)
    (h : ∀ e : Fin 1600000, (-100000 : Int) ≤ (a1 (ix2 (0 : Fin 2) e)).toInt ∧ (a1 (ix2 (0 : Fin 2) e)).toInt < 100000) :
    Cert.Spec.kXs a0 a1 = Cert.Spec.kGather a0 a1 := by
  funext i
  obtain ⟨p, q, rfl⟩ : ∃ (p : Fin 1600000) (q : Fin 64), i = ix2 p q := ⟨i 0, i 1, eq_ix2 i⟩
  unfold Cert.Spec.kXs
  rw [select_apply]
  rw [bcast_rows_apply, mask_one a1 h, select_one]

end Cert.PreIdx

end
-- ==== Proof.Region0.lean ====
/-
  What the edge region leaves in its output array: every grid point writes back one block of 6400 packed rows, the
  blocks tile the 800000 rows, and each written entry is the edge stage's entry of the arrays the region finds.
-/
import proofs.«431062_j3092376453269_2_alg».proof.Proof.Gen.KernelIdeal.Frame
import proofs.«431062_j3092376453269_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Cert.KernelIdeal Cert.KernelIdeal.Gen ValueIdx
open Idealize.ShloMosaic.Pipeline (Dat Cfg Window)

/-! ## The body's payload, entry by entry -/

theorem hz : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

theorem lhs_dot_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_dot_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_dot_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_dot_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The product of a block of 6400 rows with the 128 × 128 weight, into a zero accumulator, at entry (p, q):
    the sum over the 128 columns of the row. -/
theorem matmul_at {φ₁ φ₂ : FTy} (a : FVec Ideal S6400x128 φ₁) (b : FVec Ideal S128x128 φ₂) (p : Fin 6400) (q : Fin 128) :
    matmul dot_S6400x128_S128x128_S6400x128_1_0_0_1_n_n none a b (constant (F := Ideal) S6400x128 .f32 0x00000000#32) (ix2 p q)
      = ∑ k : Fin 128, a (ix2 p k) * b (ix2 k q) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 p q) ((ValueIdx.contrEquiv1 dot_S6400x128_S128x128_S6400x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S6400x128_S128x128_S6400x128_1_0_0_1_n_n.rhsIdx (ix2 p q) ((ValueIdx.contrEquiv1 dot_S6400x128_S128x128_S6400x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- Entry (p, q) of what the body stores: the rectified sum of the source-feature block, the product of the attribute
    block with the weight, and the bias. -/
theorem pay_apply (x0 x1 : Vec Ideal S6400x128 .f32) (x2 : Vec Ideal S128x128 .f32) (x3 : Vec Ideal S128 .f32)
    (p : Fin 6400) (q : Fin 128) :
    k0_pay1 (F := Ideal) x1 x2 x3 x0 (ix2 p q)
      = max (x0 (ix2 p q) + ((∑ k : Fin 128, x1 (ix2 p k) * x2 (ix2 k q)) + x3 (ix1 q))) 0 := by
  unfold k0_pay1
  simp only [shapeCast_self]
  rw [maximumf_apply, addf_apply, addf_apply, broadcast_apply, matmul_at]
  simp only [truncf_apply]
  have hb : broadcastTo S6400x128 (shapeCast S1x128 x3 shapeCasts_S128_S1x128) broadcasts_S1x128_S6400x128 (ix2 p q) = x3 (ix1 q) :=
    (broadcastTo_apply _ _ (ix2 p q) (ix2 (0 : Fin 1) q) (fun a => match a with
      | ⟨0, _⟩ => rfl
      | ⟨1, _⟩ => rfl)).trans (shapeCast_a_1a_apply x3 shapeCasts_S128_S1x128 (0 : Fin 1) q)
  have hzero : (FloatOps.ofBits .f32 0x00000000#32 : Ideal .f32) = 0 := Ideal.ofBits_zero_f32
  rw [hb, hzero]

/-! ## Where each window's block lies in its array -/

/-- The block index of each window at each grid point: the three windows over the 800000 rows are at block (t, 0),
    the weight and the bias are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of block t is row 6400 t + p of the array. -/
def row (t : Fin cfg0.N) (p : Fin 6400) : Fin 800000 :=
  ⟨t.val * 6400 + p.val, by have ht : t.val < grid0.N := t.isLt; rw [N_0] at ht; have hp := p.isLt; omega⟩

section Blocks

variable (V : (c : Dev nD) → (b : Ref sig .tc) → Buf (Elt Ideal) ((c : Thread nD τ).loc b)) (c : Dev nD)

/-- The source-feature block at point t, entry (p, k): the array's entry (6400 t + p, k). -/
theorem blk0_apply (t : Fin cfg0.N) (p : Fin 6400) (k : Fin 128) :
    iblk0 (F := Ideal) V c 0 t (ix2 p k) = V c main_v5 (ix2 (row t p) k) := by
  obtain ⟨e00, e01, e10, e11, e20, e21, e30, e40, e41⟩ := idx_facts t
  show V c main_v5 (((cfg0.win 0).blk t).view.emb (ix2 p k)) = _
  refine congrArg (V c main_v5) (funext fun a => Fin.ext ?_)
  match a with
  | ⟨0, _⟩ => show win0_0.index t (0 : Fin 2) * 6400 + 1 * p.val = t.val * 6400 + p.val; omega
  | ⟨1, _⟩ => show win0_0.index t (1 : Fin 2) * 128 + 1 * k.val = k.val; omega

/-- The attribute block at point t, entry (p, k): the array's entry (6400 t + p, k). -/
theorem blk1_apply (t : Fin cfg0.N) (p : Fin 6400) (k : Fin 128) :
    iblk0 (F := Ideal) V c 1 t (ix2 p k) = V c main_v6 (ix2 (row t p) k) := by
  obtain ⟨e00, e01, e10, e11, e20, e21, e30, e40, e41⟩ := idx_facts t
  show V c main_v6 (((cfg0.win 1).blk t).view.emb (ix2 p k)) = _
  refine congrArg (V c main_v6) (funext fun a => Fin.ext ?_)
  match a with
  | ⟨0, _⟩ => show win0_1.index t (0 : Fin 2) * 6400 + 1 * p.val = t.val * 6400 + p.val; omega
  | ⟨1, _⟩ => show win0_1.index t (1 : Fin 2) * 128 + 1 * k.val = k.val; omega

/-- The weight block at every point is the whole weight. -/
theorem blk2_apply (t : Fin cfg0.N) (k q : Fin 128) :
    iblk0 (F := Ideal) V c 2 t (ix2 k q) = V c main_v11 (ix2 k q) := by
  obtain ⟨e00, e01, e10, e11, e20, e21, e30, e40, e41⟩ := idx_facts t
  show V c main_v11 (((cfg0.win 2).blk t).view.emb (ix2 k q)) = _
  refine congrArg (V c main_v11) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias block at every point is the whole bias. -/
theorem blk3_apply (t : Fin cfg0.N) (q : Fin 128) :
    iblk0 (F := Ideal) V c 3 t (ix1 q) = V c main_v12 (ix1 q) := by
  obtain ⟨e00, e01, e10, e11, e20, e21, e30, e40, e41⟩ := idx_facts t
  show V c main_v12 (((cfg0.win 3).blk t).view.emb (ix1 q)) = _
  refine congrArg (V c main_v12) (funext fun a => Fin.ext ?_)
  match a with
  | ⟨0, _⟩ => show win0_3.index t (0 : Fin 1) * 128 + 1 * q.val = q.val; omega

/-- Entry (p, q) of the output block at point t is entry (6400 t + p, q) of the output array. -/
theorem emb4_apply (t : Fin cfg0.N) (p : Fin 6400) (q : Fin 128) :
    ((cfg0.win 4).blk t).view.emb (ix2 p q) = ix2 (row t p) q := by
  obtain ⟨e00, e01, e10, e11, e20, e21, e30, e40, e41⟩ := idx_facts t
  refine funext fun a => Fin.ext ?_
  match a with
  | ⟨0, _⟩ => show win0_4.index t (0 : Fin 2) * 6400 + 1 * p.val = t.val * 6400 + p.val; omega
  | ⟨1, _⟩ => show win0_4.index t (1 : Fin 2) * 128 + 1 * q.val = q.val; omega

/-! ## What each point writes back -/

/-- Point t writes back block t of the edge stage's array. -/
theorem flushed_eq (t : Fin cfg0.N) :
    (dat0 (F := Ideal) V c).flushed 4 t
      = ((cfg0.win 4).blk t).view.read (Elt Ideal)
          (Cert.Spec.edgeArr (V c main_v5) (V c main_v6) (V c main_v11) (V c main_v12)) := by
  show (cfg0.win 4).cut (grid0.coords t) ((dat0 V c).after 4 t) = _
  rw [after0_4]
  unfold out0_4
  rw [View.canon_unit_zero hz]
  simp only [View.ld_unit_zero (S := S6400x128) hz, View.ld_unit_zero (S := S128x128) hz, View.ld_unit_zero (S := S128) hz1]
  funext j
  obtain ⟨p, q, rfl⟩ : ∃ (p : Fin 6400) (q : Fin 128), j = ix2 p q := ⟨j 0, j 1, eq_ix2 j⟩
  show k0_pay1 (iblk0 V c 1 t) (iblk0 V c 2 t) (iblk0 V c 3 t) (iblk0 V c 0 t) (ix2 p q)
    = Cert.Spec.edgeArr (V c main_v5) (V c main_v6) (V c main_v11) (V c main_v12) (((cfg0.win 4).blk t).view.emb (ix2 p q))
  rw [emb4_apply]
  refine (pay_apply _ _ _ _ p q).trans ?_
  rw [blk0_apply, blk3_apply]
  simp only [blk1_apply, blk2_apply]
  rfl

/-! ## The blocks tile the array -/

/-- An index of the output array is in point t's block iff each coordinate is in the block's range on its axis. -/
theorem mem_blk (t : Fin cfg0.N) (i : S800000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v13).slice (win0_4.rect t)).set ↔ _
  rw [View.set_slice_whole, Rect.mem_set_unit]
  exact Iff.rfl

/-- Row r of the output array is written back by point r / 6400. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : grid0.N = 125 := N_0
  have ht : (i 0).val / 6400 < grid0.N := by rw [hN]; omega
  let t : Fin cfg0.N := ⟨(i 0).val / 6400, ht⟩
  have htv : t.val = (i 0).val / 6400 := rfl
  obtain ⟨e00, e01, e10, e11, e20, e21, e30, e40, e41⟩ := idx_facts t
  refine ⟨t, flush0_4 t, ?_⟩
  rw [mem_blk]
  intro a
  match a with
  | ⟨0, _⟩ => show win0_4.index t (0 : Fin 2) * 6400 ≤ (i 0).val ∧ (i 0).val < win0_4.index t (0 : Fin 2) * 6400 + 6400; omega
  | ⟨1, _⟩ => show win0_4.index t (1 : Fin 2) * 128 ≤ (i 1).val ∧ (i 1).val < win0_4.index t (1 : Fin 2) * 128 + 128; omega

end Blocks

/-- The edge region's output array after the region, for any contents V at its entry. -/
theorem final (V : (c : Dev nD) → (b : Ref sig .tc) → Buf (Elt Ideal) ((c : Thread nD τ).loc b)) (c : Dev nD) :
    (dat0 (F := Ideal) V c).arrAt 4 cfg0.N
      = Cert.Spec.edgeArr (V c main_v5) (V c main_v6) (V c main_v11) (V c main_v12) := by
  exact (dat0 V c).arrAt_eq_of_cover 4 _ (fun t _ => flushed_eq V c t) cover

end Cert.KernelIdeal.Region0

end
-- ==== Proof.Region1.lean ====
/-
  What the node region leaves in its output array: every grid point writes back one block of 2000 packed rows, the
  blocks tile the 50000 rows, and each written entry is the node stage's entry of the arrays the region finds.
-/
import proofs.«431062_j3092376453269_2_alg».proof.Proof.Gen.KernelIdeal.Frame
import proofs.«431062_j3092376453269_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Cert.KernelIdeal Cert.KernelIdeal.Gen ValueIdx
open Idealize.ShloMosaic.Pipeline (Dat Cfg Window)

/-! ## The two products of a block, entry by entry -/

theorem lhs_hid_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_hid_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_hid_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_hid_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first product into zeros, at entry (p, j): the sum over the 128 columns of the left block. -/
theorem hid_matmul_apply {φ₁ φ₂ : FTy} (a : FVec Ideal S2000x128 φ₁) (b : FVec Ideal S128x256 φ₂) (p : Fin 2000) (j : Fin 256) :
    matmul dot_S2000x128_S128x256_S2000x256_1_0_0_1_n_n none a b (constant (F := Ideal) S2000x256 .f32 0x00000000#32) (ix2 p j)
      = ∑ k : Fin 128, a (ix2 p k) * b (ix2 k j) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p j) ((ValueIdx.contrEquiv1 dot_S2000x128_S128x256_S2000x256_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S2000x128_S128x256_S2000x256_1_0_0_1_n_n.rhsIdx (ix2 p j) ((ValueIdx.contrEquiv1 dot_S2000x128_S128x256_S2000x256_1_0_0_1_n_n 128 rfl rfl).symm k) = ix2 k j := funext fun a => Fin.ext (by
    match a with
    | ⟨0, _⟩ => exact (rhs_hid_0 _ _).trans hk
    | ⟨1, _⟩ => exact rhs_hid_1 _ _)
  rw [el, er]

theorem lhs_out_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_out_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_out_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_out_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product into zeros, at entry (p, q): the sum over the 256 columns of the hidden block. -/
theorem out_matmul_apply {φ₁ φ₂ : FTy} (a : FVec Ideal S2000x256 φ₁) (b : FVec Ideal S256x128 φ₂) (p : Fin 2000) (q : Fin 128) :
    matmul dot_S2000x256_S256x128_S2000x128_1_0_0_1_n_n none a b (constant (F := Ideal) S2000x128 .f32 0x00000000#32) (ix2 p q)
      = ∑ j : Fin 256, a (ix2 p j) * b (ix2 j q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_out_0 _ _).trans hk
    | ⟨1, _⟩ => exact rhs_out_1 _ _)
  rw [el, er]

/-! ## The body's payload, entry by entry -/

/-- Entry (p, q) of what the body stores, from the six blocks it loads: the node stage's entry on those blocks. -/
theorem pay_apply (x0 x1 : Vec Ideal S2000x128 .f32) (x2 : Vec Ideal S128x256 .f32) (x3 : Vec Ideal S256 .f32)
    (x4 : Vec Ideal S256x128 .f32) (x5 : Vec Ideal S128 .f32) (p : Fin 2000) (q : Fin 128) :
    k1_pay1 (F := Ideal) x0 x1 x2 x3 x4 x5 (ix2 p q)
      = (∑ j : Fin 256, max ((∑ k : Fin 128, (Ideal.ofBits .f32 0x3F800000#32 * x0 (ix2 p k) + x1 (ix2 p k)) * x2 (ix2 k j)) + x3 (ix1 j)) 0 * x4 (ix2 j q)) + x5 (ix1 q) := by
  unfold k1_pay1
  simp only [shapeCast_self]
  rw [addf_apply, out_matmul_apply, broadcastTo_1b_ab_apply, shapeCast_a_1a_apply]
  congr 1
  refine Finset.sum_congr rfl fun j _ => ?_
  rw [truncf_apply, truncf_apply, maximumf_apply, addf_apply, hid_matmul_apply, broadcastTo_1b_ab_apply, shapeCast_a_1a_apply, broadcast_apply]
  rw [show (FloatOps.ofBits (F := Ideal) .f32 0x00000000#32) = 0 from Ideal.ofBits_zero_f32]
  congr 2

/-! ## Where each window's block sits -/

theorem hz : (![0, 0] : Fin 2 → Nat) = fun _ => 0 := funext fun a => by
  match a with
  | ⟨0, _⟩ => rfl
  | ⟨1, _⟩ => rfl

theorem hz1 : (![0] : Fin 1 → Nat) = fun _ => 0 := funext fun a => by
  match a with
  | ⟨0, _⟩ => rfl

/-- The index maps, decided over the 25 grid points: the node features, the summed messages and the output move
    down the rows one block per point; the weights and biases are whole arrays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

section Blocks

variable (V : (c : Dev nD) → (b : Ref sig .tc) → Buf (Elt Ideal) ((c : Thread nD τ).loc b)) (c : Dev nD) (t : Fin cfg1.N)

/-- The node-feature block at point t is rows 2000 t … 2000 t + 1999 of the packed node features. -/
theorem blk0_apply (p : Fin 2000) (r : Fin 50000) (hr : r.val = t.val * 2000 + p.val) (k : Fin 128) :
    (iblk1 V c 0 t : Vec Ideal S2000x128 .f32) (ix2 p k) = (V c main_v18 : S50000x128.Idx → EReal) (ix2 r k) := by
  obtain ⟨e0, e1, -⟩ := idx_facts t
  show V c main_v18 (((cfg1.win 0).blk t).view.emb (ix2 p k)) = _
  congr 1
  funext a; apply Fin.ext
  match a with
  | ⟨0, _⟩ => show win1_0.index t (0 : Fin 2) * 2000 + 1 * p.val = r.val; omega
  | ⟨1, _⟩ => show win1_0.index t (1 : Fin 2) * 128 + 1 * k.val = k.val; omega

/-- The summed-message block at point t is the same rows of the packed summed messages. -/
theorem blk1_apply (p : Fin 2000) (r : Fin 50000) (hr : r.val = t.val * 2000 + p.val) (k : Fin 128) :
    (iblk1 V c 1 t : Vec Ideal S2000x128 .f32) (ix2 p k) = (V c main_v19 : S50000x128.Idx → EReal) (ix2 r k) := by
  obtain ⟨-, -, e0, e1, -⟩ := idx_facts t
  show V c main_v19 (((cfg1.win 1).blk t).view.emb (ix2 p k)) = _
  congr 1
  funext a; apply Fin.ext
  match a with
  | ⟨0, _⟩ => show win1_1.index t (0 : Fin 2) * 2000 + 1 * p.val = r.val; omega
  | ⟨1, _⟩ => show win1_1.index t (1 : Fin 2) * 128 + 1 * k.val = k.val; omega

/-- The first weight's block is the whole packed first weight. -/
theorem blk2_apply (k : Fin 128) (j : Fin 256) :
    (iblk1 V c 2 t : Vec Ideal S128x256 .f32) (ix2 k j) = (V c main_v24 : S128x256.Idx → EReal) (ix2 k j) := by
  obtain ⟨-, -, -, -, e0, e1, -⟩ := idx_facts t
  show V c main_v24 (((cfg1.win 2).blk t).view.emb (ix2 k j)) = _
  congr 1
  funext a; apply Fin.ext
  match a with
  | ⟨0, _⟩ => show win1_2.index t (0 : Fin 2) * 128 + 1 * k.val = k.val; omega
  | ⟨1, _⟩ => show win1_2.index t (1 : Fin 2) * 256 + 1 * j.val = j.val; omega

/-- The first bias's block is the whole packed first bias. -/
theorem blk3_apply (j : Fin 256) :
    (iblk1 V c 3 t : Vec Ideal S256 .f32) (ix1 j) = (V c main_v25 : S256.Idx → EReal) (ix1 j) := by
  obtain ⟨-, -, -, -, -, -, e0, -⟩ := idx_facts t
  show V c main_v25 (((cfg1.win 3).blk t).view.emb (ix1 j)) = _
  congr 1
  funext a; apply Fin.ext
  match a with
  | ⟨0, _⟩ => show win1_3.index t (0 : Fin 1) * 256 + 1 * j.val = j.val; omega

/-- The second weight's block is the whole packed second weight. -/
theorem blk4_apply (j : Fin 256) (q : Fin 128) :
    (iblk1 V c 4 t : Vec Ideal S256x128 .f32) (ix2 j q) = (V c main_v30 : S256x128.Idx → EReal) (ix2 j q) := by
  obtain ⟨-, -, -, -, -, -, -, e0, e1, -⟩ := idx_facts t
  show V c main_v30 (((cfg1.win 4).blk t).view.emb (ix2 j q)) = _
  congr 1
  funext a; apply Fin.ext
  match a with
  | ⟨0, _⟩ => show win1_4.index t (0 : Fin 2) * 256 + 1 * j.val = j.val; omega
  | ⟨1, _⟩ => show win1_4.index t (1 : Fin 2) * 128 + 1 * q.val = q.val; omega

/-- The second bias's block is the whole packed second bias. -/
theorem blk5_apply (q : Fin 128) :
    (iblk1 V c 5 t : Vec Ideal S128 .f32) (ix1 q) = (V c main_v31 : S128.Idx → EReal) (ix1 q) := by
  obtain ⟨-, -, -, -, -, -, -, -, -, e0, -⟩ := idx_facts t
  show V c main_v31 (((cfg1.win 5).blk t).view.emb (ix1 q)) = _
  congr 1
  funext a; apply Fin.ext
  match a with
  | ⟨0, _⟩ => show win1_5.index t (0 : Fin 1) * 128 + 1 * q.val = q.val; omega

end Blocks

section Region

variable (V : (c : Dev nD) → (b : Ref sig .tc) → Buf (Elt Ideal) ((c : Thread nD τ).loc b)) (c : Dev nD)

/-- Entry (p, q) of what point t stores is the node stage's entry (r, q) of the arrays the region finds, r the row
    2000 t + p. -/
theorem pay_entry (t : Fin cfg1.N) (p : Fin 2000) (q : Fin 128) (r : Fin 50000) (q' : Fin 128)
    (hr : r.val = t.val * 2000 + p.val) (hq : q'.val = q.val) :
    k1_pay1 (F := Ideal) (iblk1 V c 0 t) (iblk1 V c 1 t) (iblk1 V c 2 t) (iblk1 V c 3 t) (iblk1 V c 4 t) (iblk1 V c 5 t) (ix2 p q)
      = Cert.Spec.nodeAt (V c main_v18) (V c main_v19) (V c main_v24) (V c main_v25) (V c main_v30) (V c main_v31) r q' := by
  obtain rfl : q' = q := Fin.ext hq
  refine (pay_apply (iblk1 V c 0 t) (iblk1 V c 1 t) (iblk1 V c 2 t) (iblk1 V c 3 t) (iblk1 V c 4 t) (iblk1 V c 5 t) p q').trans ?_
  unfold Cert.Spec.nodeAt Cert.Spec.hidAt
  rw [blk5_apply V c t q']
  refine congrArg (· + _) (Finset.sum_congr rfl fun j _ => ?_)
  rw [blk4_apply V c t j q', blk3_apply V c t j]
  refine congrArg (fun s => max (s + _) 0 * _) (Finset.sum_congr rfl fun k _ => ?_)
  rw [blk0_apply V c t p r hr k, blk1_apply V c t p r hr k, blk2_apply V c t k j]

/-- What point t writes back is block t of the node stage's array. -/
theorem flushed_eq (t : Fin cfg1.N) :
    (dat1 (F := Ideal) V c).flushed 6 t = ((cfg1.win 6).blk t).view.read (Elt Ideal)
      (Cert.Spec.nodeArr (V c main_v18) (V c main_v19) (V c main_v24) (V c main_v25) (V c main_v30) (V c main_v31)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x256) hz, View.ld_unit_zero (S := S256) hz1,
    View.ld_unit_zero (S := S256x128) hz, View.ld_unit_zero (S := S128) hz1]
  obtain ⟨-, -, -, -, -, -, -, -, -, -, e0, e1⟩ := idx_facts t
  funext j
  obtain ⟨p, q, rfl⟩ : ∃ (p : Fin 2000) (q : Fin 128), j = ix2 p q := ⟨j 0, j 1, eq_ix2 j⟩
  exact pay_entry V c t p q ⟨_, _⟩ ⟨_, _⟩
    (by show win1_6.index t (0 : Fin 2) * 2000 + 1 * p.val = _; omega)
    (by show win1_6.index t (1 : Fin 2) * 128 + 1 * q.val = _; omega)

/-- An index of the output array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v32).slice (win1_6.rect t)).set ↔ _
  rw [View.set_slice_whole, Rect.mem_set_unit]
  exact Iff.rfl

/-- Row r of the output array is written back by point r / 2000: the 25 blocks of 2000 rows tile the 50000 rows. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, -, -, -, -, e0, e1⟩ := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e1]
    omega

end Region

/-- The node region's output array after the region, for any contents V at its entry. -/
theorem final (V : (c : Dev nD) → (b : Ref sig .tc) → Buf (Elt Ideal) ((c : Thread nD τ).loc b)) (c : Dev nD) :
    (dat1 (F := Ideal) V c).arrAt 6 cfg1.N
      = Cert.Spec.nodeArr (V c main_v18) (V c main_v19) (V c main_v24) (V c main_v25) (V c main_v30) (V c main_v31) := by
  exact (dat1 (F := Ideal) V c).arrAt_eq_of_cover 6
    (Cert.Spec.nodeArr (V c main_v18) (V c main_v19) (V c main_v24) (V c main_v25) (V c main_v30) (V c main_v31))
    (fun t _ => flushed_eq V c t) cover

end Cert.KernelIdeal.Region1

end
-- ==== Proof.HostK.lean ====
/-
  The kernel program's result buffer as a closed term of @main's arguments: the contents at each boundary of @main
  (before the edge region, after it, before the node region, after it, at the return) read at the buffers that
  matter. The host operations before the edge region wrap and gather the source features and pack the operands; the
  edge region writes the packed messages; the host operations between the regions unpack them, sum them at the
  destination nodes and pack the node stage's operands; the node region writes the packed result, which the last
  host operation unpacks.
-/
import proofs.«431062_j3092376453269_2_alg».proof.Proof.Gen.KernelIdeal.Frame
import proofs.«431062_j3092376453269_2_alg».proof.Proof.Spec
import proofs.«431062_j3092376453269_2_alg».proof.Proof.Region0
import proofs.«431062_j3092376453269_2_alg».proof.Proof.Region1
import Idealize.ShloMosaic.Lib.StableHlo.Run

set_option maxRecDepth 16384

noncomputable section

namespace Cert.KernelIdeal.HostK

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the edge region: the two index rows, then the guarded gather, then the packing -/

theorem W3_arg0 : W3 m ρ c (Proc.devRef .tc main_arg0) = m ((c : Thread nD τ).loc main_arg0) := by
  dsimp only [V3, W3, W2, W1, hostOps0_2, hostOps0_1, hostOps0]; after_results_simp <;> rfl
theorem W3_arg5 : W3 m ρ c (Proc.devRef .tc main_arg5) = m ((c : Thread nD τ).loc main_arg5) := by
  dsimp only [V3, W3, W2, W1, hostOps0_2, hostOps0_1, hostOps0]; after_results_simp <;> rfl
theorem W3_arg6 : W3 m ρ c (Proc.devRef .tc main_arg6) = m ((c : Thread nD τ).loc main_arg6) := by
  dsimp only [V3, W3, W2, W1, hostOps0_2, hostOps0_1, hostOps0]; after_results_simp <;> rfl
theorem W3_arg7 : W3 m ρ c (Proc.devRef .tc main_arg7) = m ((c : Thread nD τ).loc main_arg7) := by
  dsimp only [V3, W3, W2, W1, hostOps0_2, hostOps0_1, hostOps0]; after_results_simp <;> rfl
theorem W3_arg8 : W3 m ρ c (Proc.devRef .tc main_arg8) = m ((c : Thread nD τ).loc main_arg8) := by
  dsimp only [V3, W3, W2, W1, hostOps0_2, hostOps0_1, hostOps0]; after_results_simp <;> rfl

/-- The destination indices. -/
theorem W3_v3 : W3 m ρ c (Proc.devRef .tc main_v3) = kDst (m ((c : Thread nD τ).loc main_arg1)) := by
  dsimp only [V3, W3, W2, W1, hostOps0_2, hostOps0_1, hostOps0]; after_results_simp <;> rfl

/-- Contents carried to a buffer's own type and back are the contents. -/
theorem ofBuf_toBuf {T : BufTy} (x : TRef sig T) (v : T.Contents (Elt Ideal)) : x.ofBuf (x.toBuf v) = v := by
  obtain ⟨r, h, h2, h3⟩ := x
  subst h
  rfl

/-- The guarded gather, from any contents X whose source-index and node-feature buffers are known. -/
theorem take_of (X : Valuation τ sig (Elt Ideal)) (a0 : FVec Ideal S100000x64 .f32) (a1 : IVec S2x1600000 32)
    (h1 : (TRef.of main_v1 : TRef sig ⟨S1600000, .i32⟩).ofBuf (X (Proc.devRef .tc main_v1)) = kSrc a1)
    (h0 : (TRef.of main_arg0 : TRef sig ⟨S100000x64, .f32⟩).ofBuf (X (Proc.devRef .tc main_arg0)) = a0) :
    (TRef.of main_v4 : TRef sig ⟨S1600000x64, .f32⟩).ofBuf
        (StableHlo.after (hostOps0_1 (F := Ideal)) X (Proc.devRef .tc main_v4)) = kXs a0 a1 := by
  dsimp only [hostOps0_1]
  after_results_simp
  simp only [h1, h0, ofBuf_toBuf]
  rfl

/-- The source indices after the first host operations. -/
theorem W1_v1 : (TRef.of main_v1 : TRef sig ⟨S1600000, .i32⟩).ofBuf (W1 m ρ c (Proc.devRef .tc main_v1)) = kSrc (m ((c : Thread nD τ).loc main_arg1)) := by
  dsimp only [W1, hostOps0]; after_results; rfl
/-- The node features after the first host operations. -/
theorem W1_arg0 : (TRef.of main_arg0 : TRef sig ⟨S100000x64, .f32⟩).ofBuf (W1 m ρ c (Proc.devRef .tc main_arg0)) = m ((c : Thread nD τ).loc main_arg0) := by
  dsimp only [W1, hostOps0]; after_results; rfl

/-- The guarded gather of the source features. -/
theorem W2_v4 : W2 m ρ c (Proc.devRef .tc main_v4) = kXs (m ((c : Thread nD τ).loc main_arg0)) (m ((c : Thread nD τ).loc main_arg1)) :=
  take_of (W1 m ρ c) _ _ (W1_v1 m ρ c) (W1_arg0 m ρ c)

/-- Packing two rows per packed row, from any contents X whose gathered-feature buffer is known. -/
theorem pack_of (X : Valuation τ sig (Elt Ideal)) (xs : FVec Ideal S1600000x64 .f32) (h : X (Proc.devRef .tc main_v4) = xs) :
    StableHlo.after (hostOps0_2 (F := Ideal)) X (Proc.devRef .tc main_v5)
      = shapeCast S800000x128 xs Gen.shapeCasts_S1600000x64_S800000x128 := by
  dsimp only [hostOps0_2]; after_results; rw [h]; rfl

/-- The packed source features: the guarded gather, two rows per packed row. -/
theorem V3_v5 : V3 m ρ c main_v5
    = shapeCast S800000x128 (kXs (m ((c : Thread nD τ).loc main_arg0)) (m ((c : Thread nD τ).loc main_arg1))) Gen.shapeCasts_S1600000x64_S800000x128 :=
  pack_of (W2 m ρ c) _ (W2_v4 m ρ c)

/-- The packed edge attributes. -/
theorem V3_v6 : V3 m ρ c main_v6 = shapeCast S800000x128 (m ((c : Thread nD τ).loc main_arg2)) Gen.shapeCasts_S1600000x64_S800000x128 := by
  dsimp only [V3, W3, W2, W1, hostOps0_2, hostOps0_1, hostOps0]; after_results_simp <;> rfl

/-- The packed edge weight. -/
theorem V3_v11 : V3 m ρ c main_v11 = kWe (m ((c : Thread nD τ).loc main_arg3)) := by
  unfold kWe
  dsimp only [V3, W3, W2, W1, hostOps0_2, hostOps0_1, hostOps0]; after_results_simp <;> rfl

/-- The packed edge bias. -/
theorem V3_v12 : V3 m ρ c main_v12 = kBe (m ((c : Thread nD τ).loc main_arg4)) := by
  unfold kBe
  dsimp only [V3, W3, W2, W1, hostOps0_2, hostOps0_1, hostOps0]; after_results_simp <;> rfl

/-! ## After the edge region -/

/-- The packed messages. -/
theorem W4_v13 : W4 m ρ c (Proc.devRef .tc main_v13)
    = edgeArr (shapeCast S800000x128 (kXs (m ((c : Thread nD τ).loc main_arg0)) (m ((c : Thread nD τ).loc main_arg1))) Gen.shapeCasts_S1600000x64_S800000x128)
        (shapeCast S800000x128 (m ((c : Thread nD τ).loc main_arg2)) Gen.shapeCasts_S1600000x64_S800000x128)
        (kWe (m ((c : Thread nD τ).loc main_arg3))) (kBe (m ((c : Thread nD τ).loc main_arg4))) := by
  refine (W4_arr m ρ c 4).trans ((Cert.KernelIdeal.Region0.final (V3 m ρ) c).trans ?_)
  rw [V3_v5, V3_v6, V3_v11, V3_v12]

theorem W4_v3 : W4 m ρ c (Proc.devRef .tc main_v3) = kDst (m ((c : Thread nD τ).loc main_arg1)) :=
  (W4_of_ne m ρ c main_v3 (by decide)).trans (W3_v3 m ρ c)
theorem W4_arg0 : W4 m ρ c (Proc.devRef .tc main_arg0) = m ((c : Thread nD τ).loc main_arg0) :=
  (W4_of_ne m ρ c main_arg0 (by decide)).trans (W3_arg0 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)

/-! ## Before the node region -/

/-- The packed node features. -/
theorem V5_v18 : V5 m ρ c main_v18 = shapeCast S50000x128 (m ((c : Thread nD τ).loc main_arg0)) Gen.shapeCasts_S100000x64_S50000x128 := by
  dsimp only [V5, W5, hostOps1]; after_results; rw [W4_arg0]; rfl

/-- The packed summed messages. -/
theorem V5_v19 : V5 m ρ c main_v19
    = shapeCast S50000x128 (kAgg (m ((c : Thread nD τ).loc main_arg1))
        (kMsg (kXs (m ((c : Thread nD τ).loc main_arg0)) (m ((c : Thread nD τ).loc main_arg1))) (m ((c : Thread nD τ).loc main_arg2))
          (m ((c : Thread nD τ).loc main_arg3)) (m ((c : Thread nD τ).loc main_arg4)))) Gen.shapeCasts_S100000x64_S50000x128 := by
  dsimp only [V5, W5, hostOps1]; after_results; rw [W4_v13, W4_v3]; rfl

theorem V5_v24 : V5 m ρ c main_v24 = kW0 (m ((c : Thread nD τ).loc main_arg5)) := by
  dsimp only [V5, W5, hostOps1]; after_results; rw [W4_arg5]; rfl
theorem V5_v25 : V5 m ρ c main_v25 = kB0 (m ((c : Thread nD τ).loc main_arg6)) := by
  dsimp only [V5, W5, hostOps1]; after_results; rw [W4_arg6]; rfl
theorem V5_v30 : V5 m ρ c main_v30 = kW1 (m ((c : Thread nD τ).loc main_arg7)) := by
  dsimp only [V5, W5, hostOps1]; after_results; rw [W4_arg7]; rfl
theorem V5_v31 : V5 m ρ c main_v31 = kB1 (m ((c : Thread nD τ).loc main_arg8)) := by
  dsimp only [V5, W5, hostOps1]; after_results; rw [W4_arg8]; rfl

/-! ## After the node region, and the return -/

/-- The program's result. -/
theorem W7_v33 : W7 m ρ c (Proc.devRef .tc main_v33)
    = kOut (m ((c : Thread nD τ).loc main_arg0))
        (kAgg (m ((c : Thread nD τ).loc main_arg1))
          (kMsg (kXs (m ((c : Thread nD τ).loc main_arg0)) (m ((c : Thread nD τ).loc main_arg1))) (m ((c : Thread nD τ).loc main_arg2))
            (m ((c : Thread nD τ).loc main_arg3)) (m ((c : Thread nD τ).loc main_arg4))))
        (m ((c : Thread nD τ).loc main_arg5)) (m ((c : Thread nD τ).loc main_arg6))
        (m ((c : Thread nD τ).loc main_arg7)) (m ((c : Thread nD τ).loc main_arg8)) := by
  have h6 : W6 m ρ c (Proc.devRef .tc main_v32)
      = nodeArr (shapeCast S50000x128 (m ((c : Thread nD τ).loc main_arg0)) Gen.shapeCasts_S100000x64_S50000x128)
          (shapeCast S50000x128 (kAgg (m ((c : Thread nD τ).loc main_arg1))
            (kMsg (kXs (m ((c : Thread nD τ).loc main_arg0)) (m ((c : Thread nD τ).loc main_arg1))) (m ((c : Thread nD τ).loc main_arg2))
              (m ((c : Thread nD τ).loc main_arg3)) (m ((c : Thread nD τ).loc main_arg4)))) Gen.shapeCasts_S100000x64_S50000x128)
          (kW0 (m ((c : Thread nD τ).loc main_arg5))) (kB0 (m ((c : Thread nD τ).loc main_arg6)))
          (kW1 (m ((c : Thread nD τ).loc main_arg7))) (kB1 (m ((c : Thread nD τ).loc main_arg8))) := by
    refine (W6_arr m ρ c 6).trans ((Cert.KernelIdeal.Region1.final (V5 m ρ) c).trans ?_)
    rw [V5_v18, V5_v19, V5_v24, V5_v25, V5_v30, V5_v31]
  dsimp only [W7, hostOps2]; after_results; rw [h6]; rfl

end Cert.KernelIdeal.HostK

end
-- ==== Proof.Bridge.lean ====
/-
  The two programs compute one function. The kernel's result, as a term of the arguments, is the node stage on packed
  rows of the messages summed at the destination nodes, the messages being the edge stage on packed rows of the
  guarded gather. Under the precondition the guard never fires, each packed stage is the reference's formula, and the
  gather and the sum at the destinations are the same operations of the same index arrays in both programs.
-/
import proofs.«431062_j3092376453269_2_alg».proof.Proof.Spec
import proofs.«431062_j3092376453269_2_alg».proof.Proof.RefSpec
import proofs.«431062_j3092376453269_2_alg».proof.Proof.EdgeAlg
import proofs.«431062_j3092376453269_2_alg».proof.Proof.NodeAlg
import proofs.«431062_j3092376453269_2_alg».proof.Proof.PreIdx
import proofs.«431062_j3092376453269_2_alg».proof.Proof.KRun
import proofs.«431062_j3092376453269_2_alg».proof.Proof.HostK
import proofs.«431062_j3092376453269_2_alg».proof.Proof.Gen.ReferenceIdeal.Run

set_option maxRecDepth 16384

noncomputable section

namespace Cert.Bridge

open Idealize.ShloMosaic Idealize.ShloMosaic.TcCoe Idealize.SL.Sem
open Cert.Spec Cert.RefSpec

/-- The gather is the same operation of the same start indices in both programs. -/
theorem gather_eq (a0 : FVec Ideal Cert.KernelIdeal.S100000x64 .f32) (a1 : IVec Cert.KernelIdeal.S2x1600000 32) :
    kGather a0 a1 = rGather a0 a1 := rfl

/-- The sum at the destination nodes is the same operation of the same indices in both programs. -/
theorem agg_eq (a1 : IVec Cert.KernelIdeal.S2x1600000 32) (msg : FVec Ideal Cert.KernelIdeal.S1600000x64 .f32) :
    kAgg a1 msg = rAgg a1 msg := rfl

/-- Under the precondition the kernel's result term is the reference's. -/
theorem result_eq (a0 : FVec Ideal Cert.KernelIdeal.S100000x64 .f32) (a1 : IVec Cert.KernelIdeal.S2x1600000 32)
    (a2 : FVec Ideal Cert.KernelIdeal.S1600000x64 .f32) (a3 : FVec Ideal Cert.KernelIdeal.S64x64 .f32)
    (a4 : FVec Ideal Cert.KernelIdeal.S64 .f32) (a5 : FVec Ideal Cert.KernelIdeal.S128x64 .f32)
    (a6 : FVec Ideal Cert.KernelIdeal.S128 .f32) (a7 : FVec Ideal Cert.KernelIdeal.S64x128 .f32)
    (a8 : FVec Ideal Cert.KernelIdeal.S64 .f32)
    (hpre : Cert.Pre_finite_inputs.fn (F := Ideal) a0 a1 a2 a3 a4 a5 a6 a7 a8 = fun _ => 1#1) :
    kOut a0 (kAgg a1 (kMsg (kXs a0 a1) a2 a3 a4)) a5 a6 a7 a8
      = rOut a0 (rAgg a1 (rMsg (rGather a0 a1) a2 a3 a4)) a5 a6 a7 a8 := by
  rw [Cert.PreIdx.xs_eq_gather a0 a1 (Cert.PreIdx.src_range a0 a1 a2 a3 a4 a5 a6 a7 a8 hpre),
    Cert.EdgeAlg.msg_eq, Cert.NodeAlg.out_eq, gather_eq, agg_eq]

/-- The kernel program's result on core c, as a term of its arguments. -/
def kRes (m : (ℓ : Loc Cert.KernelIdeal.nD Cert.KernelIdeal.τ Cert.KernelIdeal.sig) → Buf (Elt Ideal) ℓ) (c : Dev Cert.KernelIdeal.nD) :
    FVec Ideal Cert.KernelIdeal.S100000x64 .f32 :=
  kOut (m ((c : Thread Cert.KernelIdeal.nD Cert.KernelIdeal.τ).loc Cert.KernelIdeal.main_arg0))
    (kAgg (m ((c : Thread Cert.KernelIdeal.nD Cert.KernelIdeal.τ).loc Cert.KernelIdeal.main_arg1))
      (kMsg (kXs (m ((c : Thread Cert.KernelIdeal.nD Cert.KernelIdeal.τ).loc Cert.KernelIdeal.main_arg0)) (m ((c : Thread Cert.KernelIdeal.nD Cert.KernelIdeal.τ).loc Cert.KernelIdeal.main_arg1)))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))))
    (m ((c : Thread Cert.KernelIdeal.nD Cert.KernelIdeal.τ).loc Cert.KernelIdeal.main_arg5))
    (m ((c : Thread Cert.KernelIdeal.nD Cert.KernelIdeal.τ).loc Cert.KernelIdeal.main_arg6))
    (m ((c : Thread Cert.KernelIdeal.nD Cert.KernelIdeal.τ).loc Cert.KernelIdeal.main_arg7))
    (m ((c : Thread Cert.KernelIdeal.nD Cert.KernelIdeal.τ).loc Cert.KernelIdeal.main_arg8))

/-- The reference program's result on core c, as a term of its arguments. -/
def rRes (m : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S100000x64 .f32 :=
  rOut (m ((c : Thread Cert.ReferenceIdeal.nD Cert.ReferenceIdeal.τ).loc Cert.ReferenceIdeal.main_arg0))
    (rAgg (m ((c : Thread Cert.ReferenceIdeal.nD Cert.ReferenceIdeal.τ).loc Cert.ReferenceIdeal.main_arg1))
      (rMsg (rGather (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1)))
        (m ((c : Thread Cert.ReferenceIdeal.nD Cert.ReferenceIdeal.τ).loc Cert.ReferenceIdeal.main_arg2))
        (m ((c : Thread Cert.ReferenceIdeal.nD Cert.ReferenceIdeal.τ).loc Cert.ReferenceIdeal.main_arg3))
        (m ((c : Thread Cert.ReferenceIdeal.nD Cert.ReferenceIdeal.τ).loc Cert.ReferenceIdeal.main_arg4))))
    (m ((c : Thread Cert.ReferenceIdeal.nD Cert.ReferenceIdeal.τ).loc Cert.ReferenceIdeal.main_arg5))
    (m ((c : Thread Cert.ReferenceIdeal.nD Cert.ReferenceIdeal.τ).loc Cert.ReferenceIdeal.main_arg6))
    (m ((c : Thread Cert.ReferenceIdeal.nD Cert.ReferenceIdeal.τ).loc Cert.ReferenceIdeal.main_arg7))
    (m ((c : Thread Cert.ReferenceIdeal.nD Cert.ReferenceIdeal.τ).loc Cert.ReferenceIdeal.main_arg8))

/-- The kernel program's run: its result at `kRes`, its arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v33) = kRes m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun r h c => ⟨(h c).1.trans (Cert.KernelIdeal.HostK.W7_v33 m ρ c), (h c).2⟩)
    (Cert.KernelIdeal.KRun.run (F := Ideal) m ρ)

/-- The reference program's run: its result at `rRes`, its arguments as launched. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v34) = rRes m c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run Cert.ReferenceIdeal.defs _ _).mono
    (fun r h c => ⟨(h c).1.trans rfl, (h c).2⟩)
    (Cert.ReferenceIdeal.Value.run (F := Ideal) m ρ)

end Cert.Bridge

end
-- ==== Proof.lean ====
/-
  One GINE message-passing layer on a graph with 100000 nodes and 1600000 edges, feature width 64:
    msg[e, j] = max (x[src e, j] + (Σ_k attr[e, k] · lin_w[j, k] + lin_b[j])) 0,
    agg       = the message rows summed at their destination nodes,
    out[n, j] = Σ_k max (Σ_l (1 · x[n, l] + agg[n, l]) · w0[k, l] + b0[k]) 0 · w1[j, k] + b1[j].
  The kernel program gathers x[src] with a guard (a fill value where the index, counted from the end when negative, is
  not a row of x), runs the edge formula and the node formula each on rows packed in pairs (width 128) against
  block-diagonal copies of the weights, and unpacks; the gather and the sum at the destinations are host operations
  in both programs. The reference indexes x[src] directly, so the claim is stated for source indices in
  [-100000, 100000), where that indexing is defined and the guard never fires.
  Over the extended reals the two results are one function: a product of width 128 (or 256) against a block-diagonal
  weight is the product of the matching half against the weight plus terms against zeros, which vanish for every
  extended real, and a packed row's half h of row r is row 2r + h. The three frames are the generated ones (the
  reference's is its run with the result dropped); the kernel's idealization rewrote nothing.
-/
import proofs.«431062_j3092376453269_2_alg».proof.Defs
import proofs.«431062_j3092376453269_2_alg».proof.Proof.Gen.Kernel
import proofs.«431062_j3092376453269_2_alg».proof.Proof.Gen.Kernel.Skeleton
import proofs.«431062_j3092376453269_2_alg».proof.Proof.Gen.Kernel.Launch
import proofs.«431062_j3092376453269_2_alg».proof.Proof.Gen.Kernel.Points
import proofs.«431062_j3092376453269_2_alg».proof.Proof.Gen.Kernel.Frame
import proofs.«431062_j3092376453269_2_alg».proof.Proof.Gen.KernelIdeal
import proofs.«431062_j3092376453269_2_alg».proof.Proof.Gen.KernelIdeal.Skeleton
import proofs.«431062_j3092376453269_2_alg».proof.Proof.Gen.KernelIdeal.Launch
import proofs.«431062_j3092376453269_2_alg».proof.Proof.Gen.KernelIdeal.Points
import proofs.«431062_j3092376453269_2_alg».proof.Proof.Gen.KernelIdeal.Frame
import proofs.«431062_j3092376453269_2_alg».proof.Proof.Gen.ReferenceIdeal
import proofs.«431062_j3092376453269_2_alg».proof.Proof.Gen.Pre_finite_inputs
import proofs.«431062_j3092376453269_2_alg».proof.Proof.Gen.ReferenceIdeal.Run
import proofs.«431062_j3092376453269_2_alg».proof.Proof.Gen.ReferenceIdeal.Read
import proofs.«431062_j3092376453269_2_alg».proof.Proof.Bridge
import Idealize.ShloMosaic.Adequacy
import Idealize.ShloMosaic.Init

noncomputable section

namespace Cert.Proof

open Idealize.ShloMosaic Idealize.SL.Sem

/-- The kernel program runs and keeps its arguments (at the word level). -/
theorem frame_kernel : @Cert.frame_Kernel Cert.Kernel.Gen.facts Cert.Pre_finite_inputs.Gen.facts :=
  fun m ρ _ => Cert.Kernel.Gen.frame m ρ

/-- The idealized kernel program runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both programs end with one result: each run ends at its result term
    of its own arguments, the arguments agree, and under the precondition the two terms are equal. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Bridge.kRes m c, Cert.Bridge.kernel_run m ρ, ?_⟩
  refine (θ_run Cert.ReferenceIdeal.defs _ _).mono (fun r h c => ⟨(h c).1.trans ?_, (h c).2⟩)
    (Cert.Bridge.reference_run m' ρ')
  obtain ⟨e0, e1, e2, e3, e4, e5, e6, e7, e8⟩ := hagree c
  unfold Cert.Bridge.rRes Cert.Bridge.kRes
  rw [e0, e1, e2, e3, e4, e5, e6, e7, e8]
  exact (Cert.Bridge.result_eq _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
